-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x16x16 : Shape := ⟨5, ![8, 64, 64, 16, 16]⟩
abbrev S_ : Shape := ⟨0, ![]⟩

class Facts : Prop where
  bcast_S_S8x64x64x16x16 : S_.BroadcastsInDim S8x64x64x16x16 (![] : Fin 0 → Fin S8x64x64x16x16.rank)
  reducesTo_S8x64x64x16x16_S_d0_1_2_3_4 : S8x64x64x16x16.ReducesTo [0, 1, 2, 3, 4] S_
  h_S_ : 0 < S_.numel

variable [Facts]

def fn {F : FTy → Type} [FloatOps F] (main_arg0 : FVec F S8x64x64x16x16 .f32) : IVec S_ 1 :=
  let main_v0 : FVec F S8x64x64x16x16 .f32 := Host.absf main_arg0
  let main_cst : FVec F S_ .f32 := constant S_ .f32 0x7F800000#32
  let main_v1 : FVec F S8x64x64x16x16 .f32 := broadcastInDim S8x64x64x16x16 ![] bcast_S_S8x64x64x16x16 main_cst
  let main_v2 : IVec S8x64x64x16x16 1 := cmpf .olt main_v0 main_v1
  let main_c : IVec S_ 1 := constantI S_ 1 1#1
  let main_v3 : IVec S_ 1 := (fun x v => Host.reduce IntOp.andi x v reducesTo_S8x64x64x16x16_S_d0_1_2_3_4 h_S_) main_v2 main_c
  main_v3
-- ==== Kernel.lean ====
abbrev S8x64x64x16x16 : Shape := ⟨5, ![8, 64, 64, 16, 16]⟩
abbrev S8x64x64x256 : Shape := ⟨4, ![8, 64, 64, 256]⟩
abbrev S_ : Shape := ⟨0, ![]⟩
abbrev S8x66x64x256 : Shape := ⟨4, ![8, 66, 64, 256]⟩
abbrev S8x62x62x9x256 : Shape := ⟨5, ![8, 62, 62, 9, 256]⟩
abbrev S1x66x64x256 : Shape := ⟨4, ![1, 66, 64, 256]⟩
abbrev S1x16x62x9x256 : Shape := ⟨5, ![1, 16, 62, 9, 256]⟩
abbrev S1x16x64x256 : Shape := ⟨4, ![1, 16, 64, 256]⟩
abbrev S16x64x256 : Shape := ⟨3, ![16, 64, 256]⟩
abbrev S16x62x256 : Shape := ⟨3, ![16, 62, 256]⟩
abbrev S1x16x62x1x256 : Shape := ⟨5, ![1, 16, 62, 1, 256]⟩
abbrev S496x8928x16 : Shape := ⟨3, ![496, 8928, 16]⟩

abbrev nBuf : Space → Nat
  | .hbm => 7
  | .vmem => 4
  | .smem => 0
  | _ => 0

abbrev bufTy : (tb : Table) → Fin (tcTables nBuf tb) → BufTy
  | .hbm, ⟨0, _⟩ => ⟨S8x64x64x16x16, .f32⟩
  | .hbm, ⟨1, _⟩ => ⟨S8x64x64x256, .f32⟩
  | .hbm, ⟨2, _⟩ => ⟨S_, .i32⟩
  | .hbm, ⟨3, _⟩ => ⟨S_, .f32⟩
  | .hbm, ⟨4, _⟩ => ⟨S8x66x64x256, .f32⟩
  | .hbm, ⟨5, _⟩ => ⟨S8x62x62x9x256, .f32⟩
  | .hbm, ⟨6, _⟩ => ⟨S496x8928x16, .f32⟩
  | .local _ .vmem, ⟨0, _⟩ => ⟨S1x66x64x256, .f32⟩
  | .local _ .vmem, ⟨1, _⟩ => ⟨S1x66x64x256, .f32⟩
  | .local _ .vmem, ⟨2, _⟩ => ⟨S1x16x62x9x256, .f32⟩
  | .local _ .vmem, ⟨3, _⟩ => ⟨S1x16x62x9x256, .f32⟩
  | _, _ => ⟨S8x64x64x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def k0_off1 (i : grid0.Coords) (c0_i32 : BitVec 32) : Fin 4 → Nat :=
  let c0 : Index := 0#32
  let arg1 : BitVec 32 := BitVec.ofNat 32 (i 1).val
  let c16_i32 : BitVec 32 := 16#32
  let v0 : BitVec 32 := Scalar.muli arg1 c16_i32
  let v1 : BitVec 32 := Scalar.addi v0 c0_i32
  let v2 : Index := Scalar.indexCast v1
  let c0_0 : Index := 0#32
  let c0_1 : Index := 0#32
  ![0, v2.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x66x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16x62x9x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S8x64x64x16x16_S8x64x64x256 : S8x64x64x16x16.ShapeCasts S8x64x64x256
  pads_S8x64x64x256_S8x66x64x256_000_020_000_000 : S8x64x64x256.Pads (![0, 0, 0, 0] : Fin 4 → Nat) ![0, 2, 0, 0] ![0, 0, 0, 0] S8x66x64x256
  h_S_ : 0 < S_.numel
  h_S1x16x64x256 : 0 < S1x16x64x256.numel
  shapeCasts_S1x16x64x256_S16x64x256 : S1x16x64x256.ShapeCasts S16x64x256
  slices_S16x64x256_o0_0_0_S16x62x256 : S16x64x256.Slices ![0, 0, 0] S16x62x256
  inb_S1x16x62x9x256_S1x16x62x1x256_0_0_0_0_0 : ∀ a, (![0, 0, 0, 0, 0] : Fin 5 → Nat) a + S1x16x62x1x256.size a ≤ S1x16x62x9x256.size a
  h_S1x16x62x1x256 : 0 < S1x16x62x1x256.numel
  shapeCasts_S1x16x62x1x256_S16x62x256 : S1x16x62x1x256.ShapeCasts S16x62x256
  shapeCasts_S16x62x256_S1x16x62x1x256 : S16x62x256.ShapeCasts S1x16x62x1x256
  slices_S16x64x256_o0_1_0_S16x62x256 : S16x64x256.Slices ![0, 1, 0] S16x62x256
  inb_S1x16x62x9x256_S1x16x62x1x256_0_0_0_1_0 : ∀ a, (![0, 0, 0, 1, 0] : Fin 5 → Nat) a + S1x16x62x1x256.size a ≤ S1x16x62x9x256.size a
  slices_S16x64x256_o0_2_0_S16x62x256 : S16x64x256.Slices ![0, 2, 0] S16x62x256
  inb_S1x16x62x9x256_S1x16x62x1x256_0_0_0_2_0 : ∀ a, (![0, 0, 0, 2, 0] : Fin 5 → Nat) a + S1x16x62x1x256.size a ≤ S1x16x62x9x256.size a
  inb_S1x16x62x9x256_S1x16x62x1x256_0_0_0_3_0 : ∀ a, (![0, 0, 0, 3, 0] : Fin 5 → Nat) a + S1x16x62x1x256.size a ≤ S1x16x62x9x256.size a
  inb_S1x16x62x9x256_S1x16x62x1x256_0_0_0_4_0 : ∀ a, (![0, 0, 0, 4, 0] : Fin 5 → Nat) a + S1x16x62x1x256.size a ≤ S1x16x62x9x256.size a
  inb_S1x16x62x9x256_S1x16x62x1x256_0_0_0_5_0 : ∀ a, (![0, 0, 0, 5, 0] : Fin 5 → Nat) a + S1x16x62x1x256.size a ≤ S1x16x62x9x256.size a
  inb_S1x16x62x9x256_S1x16x62x1x256_0_0_0_6_0 : ∀ a, (![0, 0, 0, 6, 0] : Fin 5 → Nat) a + S1x16x62x1x256.size a ≤ S1x16x62x9x256.size a
  inb_S1x16x62x9x256_S1x16x62x1x256_0_0_0_7_0 : ∀ a, (![0, 0, 0, 7, 0] : Fin 5 → Nat) a + S1x16x62x1x256.size a ≤ S1x16x62x9x256.size a
  inb_S1x16x62x9x256_S1x16x62x1x256_0_0_0_8_0 : ∀ a, (![0, 0, 0, 8, 0] : Fin 5 → Nat) a + S1x16x62x1x256.size a ≤ S1x16x62x9x256.size a
  shapeCasts_S8x62x62x9x256_S496x8928x16 : S8x62x62x9x256.ShapeCasts S496x8928x16
  hrank0 : 0 < grid0.rank
  k0_off1_inb : ∀ i : grid0.Coords, ∀ (r : Fin 3), ∀ a, (k0_off1 i (BitVec.ofNat 32 r.val)) a + S1x16x64x256.size a ≤ S1x66x64x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x66x64x256.size a ≤ S8x66x64x256.size a
  hwx0_0 : ∀ i : grid0.Coords, EltTy.bits .f32 = 32 ∨ (Rect.block (s := S8x66x64x256) S1x66x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x16x62x9x256.size a < S8x62x62x9x256.size a
  hwx0_1 : ∀ i : grid0.Coords, EltTy.bits .f32 = 32 ∨ (Rect.unit (s := S8x62x62x9x256) (fun a => cc0_transform_1 i a * S1x16x62x9x256.size a) (fun a => (Pipeline.Clip.of (cc0_transform_1 i a) (S1x16x62x9x256.size a) (S8x62x62x9x256.size a)).extent (S1x16x62x9x256.size a)) fun a => Pipeline.Clip.inb (Pipeline.Clip.ok_of (hstart0_1 i a))).WholeWords (EltTy.packing .f32)
  hwxs0_1 : ∀ i : grid0.Coords, EltTy.bits .f32 = 32 ∨ (Rect.unit (s := S1x16x62x9x256) (fun _ => 0) (fun a => (Pipeline.Clip.of (cc0_transform_1 i a) (S1x16x62x9x256.size a) (S8x62x62x9x256.size a)).extent (S1x16x62x9x256.size a)) fun a => (Nat.zero_add _).trans_le (Pipeline.Clip.extent_le (Pipeline.Clip.ok_of (hstart0_1 i a)))).WholeWords (EltTy.packing .f32)

variable [Facts₀]

abbrev win0_0 : Pipeline.Window sig grid0 :=
  Pipeline.Window.ofSpec (Memref.whole main_v1) S1x66x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_v2) S1x16x62x9x256.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x64x64x16x16 : Shape := ⟨5, ![8, 64, 64, 16, 16]⟩
abbrev S62x3 : Shape := ⟨2, ![62, 3]⟩
abbrev S_ : Shape := ⟨0, ![]⟩
abbrev S62x3x1 : Shape := ⟨3, ![62, 3, 1]⟩
abbrev S1 : Shape := ⟨1, ![1]⟩
abbrev S1x1x1 : Shape := ⟨3, ![1, 1, 1]⟩
abbrev S8x62x3x64x16x16 : Shape := ⟨6, ![8, 62, 3, 64, 16, 16]⟩
abbrev S8x62x3x62x3x16x16 : Shape := ⟨7, ![8, 62, 3, 62, 3, 16, 16]⟩
abbrev S8x62x62x3x3x16x16 : Shape := ⟨7, ![8, 62, 62, 3, 3, 16, 16]⟩
abbrev S496x8928x16 : Shape := ⟨3, ![496, 8928, 16]⟩

abbrev nBuf : Space → Nat
  | .hbm => 51
  | .vmem => 0
  | .smem => 0
  | _ => 0

abbrev bufTy : (tb : Table) → Fin (tcTables nBuf tb) → BufTy
  | .hbm, ⟨0, _⟩ => ⟨S8x64x64x16x16, .f32⟩
  | .hbm, ⟨1, _⟩ => ⟨S62x3, .i32⟩
  | .hbm, ⟨2, _⟩ => ⟨S62x3, .i32⟩
  | .hbm, ⟨3, _⟩ => ⟨S_, .i32⟩
  | .hbm, ⟨4, _⟩ => ⟨S62x3, .i32⟩
  | .hbm, ⟨5, _⟩ => ⟨S62x3, .i1⟩
  | .hbm, ⟨6, _⟩ => ⟨S_, .i32⟩
  | .hbm, ⟨7, _⟩ => ⟨S62x3, .i32⟩
  | .hbm, ⟨8, _⟩ => ⟨S62x3, .i32⟩
  | .hbm, ⟨9, _⟩ => ⟨S62x3, .i32⟩
  | .hbm, ⟨10, _⟩ => ⟨S62x3x1, .i32⟩
  | .hbm, ⟨11, _⟩ => ⟨S1, .i32⟩
  | .hbm, ⟨12, _⟩ => ⟨S_, .i32⟩
  | .hbm, ⟨13, _⟩ => ⟨S62x3x1, .i32⟩
  | .hbm, ⟨14, _⟩ => ⟨S62x3x1, .i1⟩
  | .hbm, ⟨15, _⟩ => ⟨S1x1x1, .i32⟩
  | .hbm, ⟨16, _⟩ => ⟨S62x3x1, .i32⟩
  | .hbm, ⟨17, _⟩ => ⟨S62x3x1, .i1⟩
  | .hbm, ⟨18, _⟩ => ⟨S62x3x1, .i1⟩
  | .hbm, ⟨19, _⟩ => ⟨S_, .i1⟩
  | .hbm, ⟨20, _⟩ => ⟨S62x3, .i1⟩
  | .hbm, ⟨21, _⟩ => ⟨S8x62x3x64x16x16, .f32⟩
  | .hbm, ⟨22, _⟩ => ⟨S8x62x3x64x16x16, .i1⟩
  | .hbm, ⟨23, _⟩ => ⟨S_, .f32⟩
  | .hbm, ⟨24, _⟩ => ⟨S8x62x3x64x16x16, .f32⟩
  | .hbm, ⟨25, _⟩ => ⟨S8x62x3x64x16x16, .f32⟩
  | .hbm, ⟨26, _⟩ => ⟨S_, .i32⟩
  | .hbm, ⟨27, _⟩ => ⟨S62x3, .i32⟩
  | .hbm, ⟨28, _⟩ => ⟨S62x3, .i1⟩
  | .hbm, ⟨29, _⟩ => ⟨S_, .i32⟩
  | .hbm, ⟨30, _⟩ => ⟨S62x3, .i32⟩
  | .hbm, ⟨31, _⟩ => ⟨S62x3, .i32⟩
  | .hbm, ⟨32, _⟩ => ⟨S62x3, .i32⟩
  | .hbm, ⟨33, _⟩ => ⟨S62x3x1, .i32⟩
  | .hbm, ⟨34, _⟩ => ⟨S1, .i32⟩
  | .hbm, ⟨35, _⟩ => ⟨S_, .i32⟩
  | .hbm, ⟨36, _⟩ => ⟨S62x3x1, .i32⟩
  | .hbm, ⟨37, _⟩ => ⟨S62x3x1, .i1⟩
  | .hbm, ⟨38, _⟩ => ⟨S1x1x1, .i32⟩
  | .hbm, ⟨39, _⟩ => ⟨S62x3x1, .i32⟩
  | .hbm, ⟨40, _⟩ => ⟨S62x3x1, .i1⟩
  | .hbm, ⟨41, _⟩ => ⟨S62x3x1, .i1⟩
  | .hbm, ⟨42, _⟩ => ⟨S_, .i1⟩
  | .hbm, ⟨43, _⟩ => ⟨S62x3, .i1⟩
  | .hbm, ⟨44, _⟩ => ⟨S8x62x3x62x3x16x16, .f32⟩
  | .hbm, ⟨45, _⟩ => ⟨S8x62x3x62x3x16x16, .i1⟩
  | .hbm, ⟨46, _⟩ => ⟨S_, .f32⟩
  | .hbm, ⟨47, _⟩ => ⟨S8x62x3x62x3x16x16, .f32⟩
  | .hbm, ⟨48, _⟩ => ⟨S8x62x3x62x3x16x16, .f32⟩
  | .hbm, ⟨49, _⟩ => ⟨S8x62x62x3x3x16x16, .f32⟩
  | .hbm, ⟨50, _⟩ => ⟨S496x8928x16, .f32⟩
  | _, _ => ⟨S8x64x64x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v1 : Ref sig .tc := ⟨.hbm, 48, rfl⟩
abbrev main_v2 : Ref sig .tc := ⟨.hbm, 49, rfl⟩
abbrev main_v3 : Ref sig .tc := ⟨.hbm, 50, rfl⟩

abbrev nD : Nat := 1
abbrev τ : Topo := Topo.v7x

variable {F : FTy → Type} [FloatOps F]

class Facts₀ : Prop where
  bcast_S_S62x3 : S_.BroadcastsInDim S62x3 (![] : Fin 0 → Fin S62x3.rank)
  bcast_S62x3_S62x3x1_0_1 : S62x3.BroadcastsInDim S62x3x1 (![0, 1] : Fin 2 → Fin S62x3x1.rank)
  bcast_S_S62x3x1 : S_.BroadcastsInDim S62x3x1 (![] : Fin 0 → Fin S62x3x1.rank)
  bcast_S1_S1x1x1_2 : S1.BroadcastsInDim S1x1x1 (![2] : Fin 1 → Fin S1x1x1.rank)
  bcast_S1x1x1_S62x3x1_0_1_2 : S1x1x1.BroadcastsInDim S62x3x1 (![0, 1, 2] : Fin 3 → Fin S62x3x1.rank)
  reducesTo_S62x3x1_S62x3_d2 : S62x3x1.ReducesTo [2] S62x3
  h_S_ : 0 < S_.numel
  bcast_S62x3_S8x62x3x64x16x16_1_2 : S62x3.BroadcastsInDim S8x62x3x64x16x16 (![1, 2] : Fin 2 → Fin S8x62x3x64x16x16.rank)
  bcast_S_S8x62x3x64x16x16 : S_.BroadcastsInDim S8x62x3x64x16x16 (![] : Fin 0 → Fin S8x62x3x64x16x16.rank)
  bcast_S62x3_S8x62x3x62x3x16x16_3_4 : S62x3.BroadcastsInDim S8x62x3x62x3x16x16 (![3, 4] : Fin 2 → Fin S8x62x3x62x3x16x16.rank)
  bcast_S_S8x62x3x62x3x16x16 : S_.BroadcastsInDim S8x62x3x62x3x16x16 (![] : Fin 0 → Fin S8x62x3x62x3x16x16.rank)
  transposes_S8x62x3x62x3x16x16_S8x62x62x3x3x16x16_0_1_3_2_4_5_6 : S8x62x3x62x3x16x16.Transposes [0, 1, 3, 2, 4, 5, 6] S8x62x62x3x3x16x16
  shapeCasts_S8x62x62x3x3x16x16_S496x8928x16 : S8x62x62x3x3x16x16.ShapeCasts S496x8928x16
  gather_S8x64x64x16x16_S62x3x1_S8x62x3x64x16x16_0345_1_n_n_1_2_81641616_wf : GatherDims.WF S8x64x64x16x16 S62x3x1 S8x62x3x64x16x16 [0, 3, 4, 5] [1] [] [1] [] 2 ![8, 1, 64, 16, 16]
  gather_S8x62x3x64x16x16_S62x3x1_S8x62x3x62x3x16x16_01256_3_n_n_3_2_862311616_wf : GatherDims.WF S8x62x3x64x16x16 S62x3x1 S8x62x3x62x3x16x16 [0, 1, 2, 5, 6] [3] [] [3] [] 2 ![8, 62, 3, 1, 16, 16]

variable [Facts₀]

def gather_S8x64x64x16x16_S62x3x1_S8x62x3x64x16x16_0345_1_n_n_1_2_81641616 : GatherDims S8x64x64x16x16 S62x3x1 S8x62x3x64x16x16 where
  offsetDims := [0, 3, 4, 5]
  collapsedSliceDims := [1]
  operandBatchingDims := []
  startIndicesBatchingDims := []
  startIndexMap := [1]
  indexVectorDim := 2
  sliceSizes := ![8, 1, 64, 16, 16]
  wf := gather_S8x64x64x16x16_S62x3x1_S8x62x3x64x16x16_0345_1_n_n_1_2_81641616_wf
def gather_S8x62x3x64x16x16_S62x3x1_S8x62x3x62x3x16x16_01256_3_n_n_3_2_862311616 : GatherDims S8x62x3x64x16x16 S62x3x1 S8x62x3x62x3x16x16 where
  offsetDims := [0, 1, 2, 5, 6]
  collapsedSliceDims := [3]
  operandBatchingDims := []
  startIndicesBatchingDims := []
  startIndexMap := [3]
  indexVectorDim := 2
  sliceSizes := ![8, 62, 3, 1, 16, 16]
  wf := gather_S8x62x3x64x16x16_S62x3x1_S8x62x3x62x3x16x16_01256_3_n_n_3_2_862311616_wf

class Facts : Prop extends Facts₀ where

variable [Facts]
-- ==== Proof.Patches.lean ====
/-
  The patch extraction both programs compute, as ONE function of the input array.

  The input is x : [8, 64, 64, 16, 16] (batch, row, column, capsule, pose). A 3×3 window slides over rows and
  columns with stride one, so there are 62 × 62 window positions per batch. The result lists, for every batch
  b, window row oh, window column ow, offset (kh, kw) inside the window, capsule c and pose entry d, the input
  element x[b, oh + kh, ow + kw, c, d], in that (row-major) order, and is then regrouped as [496, 8928, 16]:
  496 = 8 · 62 rows (b, oh) and 8928 = 62 · 144 columns (ow, kh, kw, c), since 144 = 3 · 3 · 16.
  So at a result index (r, q, d): b = r / 62, oh = r % 62, ow = q / 144, kh = q / 48 % 3, kw = q / 16 % 3,
  c = q % 16.
-/
import Idealize.ShloMosaic.Lib.ValueIdx

namespace Cert.Patches

open Idealize.ShloMosaic Idealize.ShloMosaic.ValueIdx

/-- The input's shape and the result's. -/
abbrev SX : Shape := ⟨5, ![8, 64, 64, 16, 16]⟩
abbrev SP : Shape := ⟨3, ![496, 8928, 16]⟩

/-- The input index the result reads at (r, q, d). -/
def srcOf (r : Fin 496) (q : Fin 8928) (d : Fin 16) : SX.Idx :=
  ix5 (⟨r.val / 62, by omega⟩ : Fin 8) (⟨r.val % 62 + q.val / 48 % 3, by omega⟩ : Fin 64)
    (⟨q.val / 144 + q.val / 16 % 3, by omega⟩ : Fin 64) (⟨q.val % 16, by omega⟩ : Fin 16) d

/-- The patches of x. -/
def patches {α : Type} (x : SX.Idx → α) : SP.Idx → α := fun i => x (srcOf (i 0) (i 1) (i 2))

/-- An index of a rank-7 array from its seven coordinates, and every such index is one. -/
abbrev ix7 {n0 n1 n2 n3 n4 n5 n6 : Nat} (a : Fin n0) (b : Fin n1) (c : Fin n2) (d : Fin n3) (e : Fin n4) (f : Fin n5) (g : Fin n6) :
    (⟨7, ![n0, n1, n2, n3, n4, n5, n6]⟩ : Shape).Idx :=
  fun k => match k with
    | ⟨0, _⟩ => a | ⟨1, _⟩ => b | ⟨2, _⟩ => c | ⟨3, _⟩ => d | ⟨4, _⟩ => e | ⟨5, _⟩ => f | ⟨6, _⟩ => g

theorem eq_ix7 {n0 n1 n2 n3 n4 n5 n6 : Nat} (j : (⟨7, ![n0, n1, n2, n3, n4, n5, n6]⟩ : Shape).Idx) :
    j = ix7 (j 0) (j 1) (j 2) (j 3) (j 4) (j 5) (j 6) := by
  funext k
  match k with
  | ⟨0, _⟩ => rfl | ⟨1, _⟩ => rfl | ⟨2, _⟩ => rfl | ⟨3, _⟩ => rfl | ⟨4, _⟩ => rfl | ⟨5, _⟩ => rfl | ⟨6, _⟩ => rfl

theorem patches_apply {α : Type} (x : SX.Idx → α) (r : Fin 496) (q : Fin 8928) (d : Fin 16) :
    patches x (ix3 r q d) = x (srcOf r q d) := rfl

end Cert.Patches
-- ==== Proof.KerHost.lean ====
/-
  What the kernel's region finds in its input array.

  Before the region the host regroups the input x : [8, 64, 64, 16, 16] to [8, 64, 64, 256] (capsule c and pose
  entry d merge into one lane l = 16 c + d) and appends two rows of zeros to each batch, giving [8, 66, 64, 256].
  At a row below 64 the padded array therefore holds x itself: entry (b, h, w, l) is x[b, h, w, l / 16, l % 16].
-/
import proofs.«152610_j33225867002119_1_alg».proof.Proof.Gen.KernelIdeal.Frame
import Idealize.ShloMosaic.Lib.StableHlo.Run
import Idealize.ShloMosaic.Lib.ValueIdx
import Idealize.ShloMosaic.Lib.Pipeline.Value
import Idealize.ShloMosaic.Lib.KernelVsHost

set_option maxRecDepth 16384

noncomputable section

namespace Cert.KerSide

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- The region's input array is the regrouped input with two rows of the converted integer zero appended. -/
theorem entry_eq (c : Dev nD) :
    (V m c main_v1 : S8x66x64x256.Idx → Elt F .f32)
      = pad S8x66x64x256 ![0, 0, 0, 0] ![0, 2, 0, 0] ![0, 0, 0, 0]
          (shapeCast S8x64x64x256 (m ((c : Thread nD τ).loc main_arg0)) Facts₀.shapeCasts_S8x64x64x16x16_S8x64x64x256)
          (sitofp .f32 (constantI S_ 32 0#32)) Facts₀.pads_S8x64x64x256_S8x66x64x256_000_020_000_000 Facts₀.h_S_ := by
  dsimp only [Gen.V, Gen.V0]
  simp only [Gen.hostOps0, Gen.hostOps0_1, List.flatten_cons, List.flatten_nil, List.append_nil, List.cons_append,
    List.nil_append]
  after_results
  rfl

/-- At a row below 64 it holds the input: lane l is capsule l / 16, pose entry l % 16. -/
theorem entry_read (c : Dev nD) (b : Fin 8) (h : Fin 66) (w : Fin 64) (l : Fin 256) (hh : h.val < 64) :
    V m c main_v1 (ix4 b h w l)
      = m ((c : Thread nD τ).loc main_arg0)
          (ix5 b (⟨h.val, hh⟩ : Fin 64) w (⟨l.val / 16, by omega⟩ : Fin 16) (⟨l.val % 16, by omega⟩ : Fin 16)) := by
  refine (congrFun (entry_eq m c) (ix4 b h w l)).trans ?_
  refine (pad_apply_of_inside _ _ _ _ _ _ _ (ix4 b h w l) (ix4 b (⟨h.val, hh⟩ : Fin 64) w l) ?_).trans ?_
  · intro a
    match a with
    | ⟨0, _⟩ => show b.val = 0 + b.val * (0 + 1); omega
    | ⟨1, _⟩ => show h.val = 0 + h.val * (0 + 1); omega
    | ⟨2, _⟩ => show w.val = 0 + w.val * (0 + 1); omega
    | ⟨3, _⟩ => show l.val = 0 + l.val * (0 + 1); omega
  · refine shapeCast_apply (s := S8x64x64x16x16) (t := S8x64x64x256) _ _ _ _ ?_
    rw [Shape.rowMajor_val_five, Shape.rowMajor_val_four]
    show (((b.val * 64 + h.val) * 64 + w.val) * 16 + l.val / 16) * 16 + l.val % 16
      = ((b.val * 64 + h.val) * 64 + w.val) * 256 + l.val
    omega

end Cert.KerSide

end
-- ==== Proof.KerBlock.lean ====
import proofs.«152610_j33225867002119_1_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KerSide
open Cert.KernelIdeal Cert.KernelIdeal.Gen Idealize.ShloMosaic Idealize.ShloMosaic.TcCoe Idealize.SL.Sem Idealize.ShloMosaic.ValueIdx
variable {F : FTy → Type} [FloatOps F]

/-! ## A window's columns, read at an index

Every stored value is one window of sixteen rows with its leading unit axis dropped, the sixty-two
columns from `kw` on cut out, and a unit axis put back before the rows and before the lanes. -/

/-- The window `v` so cut and recast, at `(u, r, w, z, l)`, is `v` at row `r`, column `w + kw`, lane `l`. -/
theorem win_apply (kw : Nat) (v : Vec F S1x16x64x256 .f32) (hd : S1x16x64x256.ShapeCasts S16x64x256)
    (hs : S16x64x256.Slices ![0, kw, 0] S16x62x256) (hc : S16x62x256.ShapeCasts S1x16x62x1x256)
    (u : Fin 1) (r : Fin 16) (w : Fin 62) (z : Fin 1) (l : Fin 256) (hw : w.val + kw < 64) :
    shapeCast S1x16x62x1x256 (extractStridedSlice S16x62x256 ![0, kw, 0] (shapeCast S16x64x256 v hd) hs) hc (ix5 u r w z l)
      = v (ix4 (0 : Fin 1) r (⟨w.val + kw, hw⟩ : Fin 64) l) := by
  refine (shapeCast_apply _ hc (ix5 u r w z l) (ix3 r w l) ?_).trans ?_
  · have hu : u.val = 0 := by omega
    have hz : z.val = 0 := by omega
    have key : (r.val * 62 + w.val) * 256 + l.val
        = (((u.val * 16 + r.val) * 62 + w.val) * 1 + z.val) * 256 + l.val := by
      rw [hu, hz]; omega
    rw [Shape.rowMajor_val_three, Shape.rowMajor_val_five]
    exact key
  · have hk : w.val + kw = kw + w.val := by omega
    refine (slice3_axis1_apply kw _ hs r w l (⟨w.val + kw, hw⟩ : Fin 64) hk).trans ?_
    exact shapeCast_1abc_abc_apply v hd r _ l

/-! ## A load of sixteen rows of the input block -/

/-- A load of the whole-memref input through a unit-stride rectangle at offsets `off` reads, at `y`, the
    contents at the index `k` whose coordinates are `off + y`. -/
theorem load_apply (arg2 : Memref sig .tc .vmem S1x66x64x256 .f32) (harg2 : arg2.IsWhole) (x0 : Vec F S1x66x64x256 .f32)
    (off : Fin 4 → Nat) (inb : ∀ a, off a + S1x16x64x256.size a ≤ S1x66x64x256.size a)
    (y : S1x16x64x256.Idx) (k : S1x66x64x256.Idx) (hk : ∀ a, (k a).val = off a + (y a).val) :
    View.readAt (Elt F) arg2.view (Rect.unit (s := S1x66x64x256) off S1x16x64x256.size inb).toLoadRect (harg2.unread x0) y = x0 k := by
  have e : arg2.view.read (Elt F) (harg2.unread x0) = x0 := harg2.read_unread x0
  show arg2.view.read (Elt F) (harg2.unread x0) ((Rect.unit (s := S1x66x64x256) off S1x16x64x256.size inb).idx y) = x0 k
  rw [e]
  refine congrArg x0 (funext fun a => Fin.ext ?_)
  have h1 : off a + 1 * (y a).val = off a + (y a).val := by omega
  rw [hk a]
  exact h1

/-! ## The block as one function of its index -/

/-- What the block holds at `(0, r, w, k, l)`: the input block at row `16·ohb + k / 3 + r`, column `w + k % 3`, lane `l`. -/
def blockFn (i : grid0.Coords) (x0 : Vec F S1x66x64x256 .f32) : Vec F S1x16x62x9x256 .f32 := fun y =>
  x0 (ix4 (0 : Fin 1)
    (⟨(i 1).val * 16 + (y 3).val / 3 + (y 1).val, by
        have h0 : (i 1).val < 4 := (i 1).isLt
        have h1 : (y 1).val < 16 := (y 1).isLt
        have h3 : (y 3).val < 9 := (y 3).isLt
        omega⟩ : Fin 66)
    (⟨(y 2).val + (y 3).val % 3, by
        have h2 : (y 2).val < 62 := (y 2).isLt
        omega⟩ : Fin 64)
    (y 4))

/-- A piece stored in slot `K` whose payload, at every index, is the block function at the same row, column and
    lane of slot `K`, agrees with the block function under its rectangle. -/
theorem piece_ok (K : Nat) (hK : K < 9)
    (inb : ∀ a, (![0, 0, 0, K, 0] : Fin 5 → Nat) a + S1x16x62x1x256.size a ≤ S1x16x62x9x256.size a)
    (pay : FVec F S1x16x62x1x256 .f32) (G : Vec F S1x16x62x9x256 .f32)
    (hpay : ∀ (u : Fin 1) (r : Fin 16) (w : Fin 62) (z : Fin 1) (l : Fin 256),
      pay (ix5 u r w z l) = G (ix5 (0 : Fin 1) r w (⟨K, hK⟩ : Fin 9) l))
    (x : (Rect.unit (s := S1x16x62x9x256) ![0, 0, 0, K, 0] S1x16x62x1x256.size inb).shape.Idx) :
    pay x = G ((Rect.unit (s := S1x16x62x9x256) ![0, 0, 0, K, 0] S1x16x62x1x256.size inb).emb x) := by
  have hx : x = ix5 (n0 := 1) (n1 := 16) (n2 := 62) (n3 := 1) (n4 := 256) (x 0) (x 1) (x 2) (x 3) (x 4) := eq_ix5 x
  have he : (Rect.unit (s := S1x16x62x9x256) ![0, 0, 0, K, 0] S1x16x62x1x256.size inb).emb x
      = ix5 (0 : Fin 1) (x 1 : Fin 16) (x 2 : Fin 62) (⟨K, hK⟩ : Fin 9) (x 4 : Fin 256) := by
    funext a
    refine Fin.ext ?_
    have h0 : (x 0).val < 1 := (x 0).isLt
    have h3 : (x 3).val < 1 := (x 3).isLt
    match a with
    | ⟨0, _⟩ => show 0 + 1 * (x 0).val = 0; omega
    | ⟨1, _⟩ => show 0 + 1 * (x 1).val = (x 1).val; omega
    | ⟨2, _⟩ => show 0 + 1 * (x 2).val = (x 2).val; omega
    | ⟨3, _⟩ => show K + 1 * (x 3).val = K; omega
    | ⟨4, _⟩ => show 0 + 1 * (x 4).val = (x 4).val; omega
  rw [he]
  exact (congrArg pay hx).trans (hpay (x 0) (x 1) (x 2) (x 3) (x 4))

/-! ## Each stored value under its slot -/

/-- The value stored in slot `3·kh + kw` (window `kh`, columns from `kw`), at any index, is the block function at the
    same row, column and lane of that slot: the window's columns read at an index, then the load. -/
theorem slot_apply (arg2 : Memref sig .tc .vmem S1x66x64x256 .f32) (harg2 : arg2.IsWhole) (x0 : Vec F S1x66x64x256 .f32)
    (i : grid0.Coords) (kh kw : Nat) (hkh : kh < 3) (hkw : kw < 3)
    (off : Fin 4 → Nat) (hoff : off = ![0, 16 * (i 1).val + kh, 0, 0])
    (inb : ∀ a, off a + S1x16x64x256.size a ≤ S1x66x64x256.size a)
    (hd : S1x16x64x256.ShapeCasts S16x64x256) (hs : S16x64x256.Slices ![0, kw, 0] S16x62x256)
    (hc : S16x62x256.ShapeCasts S1x16x62x1x256)
    (u : Fin 1) (r : Fin 16) (w : Fin 62) (z : Fin 1) (l : Fin 256) :
    shapeCast S1x16x62x1x256 (extractStridedSlice S16x62x256 ![0, kw, 0]
        (shapeCast S16x64x256
          (View.readAt (Elt F) arg2.view (Rect.unit (s := S1x66x64x256) off S1x16x64x256.size inb).toLoadRect (harg2.unread x0))
          hd) hs) hc (ix5 u r w z l)
      = blockFn i x0 (ix5 (0 : Fin 1) r w (⟨3 * kh + kw, by omega⟩ : Fin 9) l) := by
  have hw : w.val + kw < 64 := by omega
  refine (win_apply kw _ hd hs hc u r w z l hw).trans ?_
  refine load_apply arg2 harg2 x0 off inb _ _ (fun a => ?_)
  subst hoff
  match a with
  | ⟨0, _⟩ => exact (Nat.zero_add 0).symm
  | ⟨1, _⟩ =>
    have e : (i 1).val * 16 + (3 * kh + kw) / 3 + r.val = 16 * (i 1).val + kh + r.val := by omega
    exact e
  | ⟨2, _⟩ =>
    have e : w.val + (3 * kh + kw) % 3 = 0 + (w.val + kw) := by omega
    exact e
  | ⟨3, _⟩ => exact (Nat.zero_add l.val).symm

/-! ## The block after one grid point -/

theorem out_block (c : Dev nD) (i : grid0.Coords) (arg2 : Memref sig .tc .vmem S1x66x64x256 .f32) (harg2 : arg2.IsWhole)
    (arg3 : Memref sig .tc .vmem S1x16x62x9x256 .f32) (harg3 : arg3.IsWhole) (x0 : Vec F S1x66x64x256 .f32)
    (r : Fin 16) (w : Fin 62) (k : Fin 9) (l : Fin 256) :
    out0_A_1 c i arg2 harg2 arg3 harg3 x0 (ix5 (0 : Fin 1) r w k l)
      = x0 (ix4 (0 : Fin 1) (⟨(i 1).val * 16 + k.val / 3 + r.val, by have := (i 1).isLt; have : (i 1).val < 4 := this; omega⟩ : Fin 66)
          (⟨w.val + k.val % 3, by omega⟩ : Fin 64) l) := by
  unfold out0_A_1
  rw [View.read_writes_eq_canon _ _ _ (cover0_A_1 c i arg2 harg2 arg3 harg3 x0)]
  refine (View.canon_apply_of_pieces (blockFn i x0) _ ?_ _ (cover0_A_1 c i arg2 harg2 arg3 harg3 x0 _)).trans rfl
  unfold kernelRun0_A
  dsimp only
  sl_unfold_run_names
  refine List.forall_mem_cons.2 ⟨?_, List.forall_mem_cons.2 ⟨?_, List.forall_mem_cons.2 ⟨?_,
    List.forall_mem_cons.2 ⟨?_, List.forall_mem_cons.2 ⟨?_, List.forall_mem_cons.2 ⟨?_,
    List.forall_mem_cons.2 ⟨?_, List.forall_mem_cons.2 ⟨?_, List.forall_mem_cons.2 ⟨?_,
    fun _ h => absurd h List.not_mem_nil⟩⟩⟩⟩⟩⟩⟩⟩⟩
  · refine piece_ok 8 (by decide) Cert.KernelIdeal.Gen.inb_S1x16x62x9x256_S1x16x62x1x256_0_0_0_8_0 _ _ ?_
    intro u r w z l
    exact slot_apply arg2 harg2 x0 i 2 2 (by decide) (by decide) _ (k0_off1_eq i ⟨2, by decide⟩) (k0_off1_inb i 2)
      Cert.KernelIdeal.Gen.shapeCasts_S1x16x64x256_S16x64x256 Cert.KernelIdeal.Gen.slices_S16x64x256_o0_2_0_S16x62x256
      Cert.KernelIdeal.Gen.shapeCasts_S16x62x256_S1x16x62x1x256 u r w z l
  · refine piece_ok 7 (by decide) Cert.KernelIdeal.Gen.inb_S1x16x62x9x256_S1x16x62x1x256_0_0_0_7_0 _ _ ?_
    intro u r w z l
    exact slot_apply arg2 harg2 x0 i 2 1 (by decide) (by decide) _ (k0_off1_eq i ⟨2, by decide⟩) (k0_off1_inb i 2)
      Cert.KernelIdeal.Gen.shapeCasts_S1x16x64x256_S16x64x256 Cert.KernelIdeal.Gen.slices_S16x64x256_o0_1_0_S16x62x256
      Cert.KernelIdeal.Gen.shapeCasts_S16x62x256_S1x16x62x1x256 u r w z l
  · refine piece_ok 6 (by decide) Cert.KernelIdeal.Gen.inb_S1x16x62x9x256_S1x16x62x1x256_0_0_0_6_0 _ _ ?_
    intro u r w z l
    exact slot_apply arg2 harg2 x0 i 2 0 (by decide) (by decide) _ (k0_off1_eq i ⟨2, by decide⟩) (k0_off1_inb i 2)
      Cert.KernelIdeal.Gen.shapeCasts_S1x16x64x256_S16x64x256 Cert.KernelIdeal.Gen.slices_S16x64x256_o0_0_0_S16x62x256
      Cert.KernelIdeal.Gen.shapeCasts_S16x62x256_S1x16x62x1x256 u r w z l
  · refine piece_ok 5 (by decide) Cert.KernelIdeal.Gen.inb_S1x16x62x9x256_S1x16x62x1x256_0_0_0_5_0 _ _ ?_
    intro u r w z l
    exact slot_apply arg2 harg2 x0 i 1 2 (by decide) (by decide) _ (k0_off1_eq i ⟨1, by decide⟩) (k0_off1_inb i 1)
      Cert.KernelIdeal.Gen.shapeCasts_S1x16x64x256_S16x64x256 Cert.KernelIdeal.Gen.slices_S16x64x256_o0_2_0_S16x62x256
      Cert.KernelIdeal.Gen.shapeCasts_S16x62x256_S1x16x62x1x256 u r w z l
  · refine piece_ok 4 (by decide) Cert.KernelIdeal.Gen.inb_S1x16x62x9x256_S1x16x62x1x256_0_0_0_4_0 _ _ ?_
    intro u r w z l
    exact slot_apply arg2 harg2 x0 i 1 1 (by decide) (by decide) _ (k0_off1_eq i ⟨1, by decide⟩) (k0_off1_inb i 1)
      Cert.KernelIdeal.Gen.shapeCasts_S1x16x64x256_S16x64x256 Cert.KernelIdeal.Gen.slices_S16x64x256_o0_1_0_S16x62x256
      Cert.KernelIdeal.Gen.shapeCasts_S16x62x256_S1x16x62x1x256 u r w z l
  · refine piece_ok 3 (by decide) Cert.KernelIdeal.Gen.inb_S1x16x62x9x256_S1x16x62x1x256_0_0_0_3_0 _ _ ?_
    intro u r w z l
    exact slot_apply arg2 harg2 x0 i 1 0 (by decide) (by decide) _ (k0_off1_eq i ⟨1, by decide⟩) (k0_off1_inb i 1)
      Cert.KernelIdeal.Gen.shapeCasts_S1x16x64x256_S16x64x256 Cert.KernelIdeal.Gen.slices_S16x64x256_o0_0_0_S16x62x256
      Cert.KernelIdeal.Gen.shapeCasts_S16x62x256_S1x16x62x1x256 u r w z l
  · refine piece_ok 2 (by decide) Cert.KernelIdeal.Gen.inb_S1x16x62x9x256_S1x16x62x1x256_0_0_0_2_0 _ _ ?_
    intro u r w z l
    exact slot_apply arg2 harg2 x0 i 0 2 (by decide) (by decide) _ (k0_off1_eq i ⟨0, by decide⟩) (k0_off1_inb i 0)
      Cert.KernelIdeal.Gen.shapeCasts_S1x16x64x256_S16x64x256 Cert.KernelIdeal.Gen.slices_S16x64x256_o0_2_0_S16x62x256
      Cert.KernelIdeal.Gen.shapeCasts_S16x62x256_S1x16x62x1x256 u r w z l
  · refine piece_ok 1 (by decide) Cert.KernelIdeal.Gen.inb_S1x16x62x9x256_S1x16x62x1x256_0_0_0_1_0 _ _ ?_
    intro u r w z l
    exact slot_apply arg2 harg2 x0 i 0 1 (by decide) (by decide) _ (k0_off1_eq i ⟨0, by decide⟩) (k0_off1_inb i 0)
      Cert.KernelIdeal.Gen.shapeCasts_S1x16x64x256_S16x64x256 Cert.KernelIdeal.Gen.slices_S16x64x256_o0_1_0_S16x62x256
      Cert.KernelIdeal.Gen.shapeCasts_S16x62x256_S1x16x62x1x256 u r w z l
  · refine piece_ok 0 (by decide) Cert.KernelIdeal.Gen.inb_S1x16x62x9x256_S1x16x62x1x256_0_0_0_0_0 _ _ ?_
    intro u r w z l
    exact slot_apply arg2 harg2 x0 i 0 0 (by decide) (by decide) _ (k0_off1_eq i ⟨0, by decide⟩) (k0_off1_inb i 0)
      Cert.KernelIdeal.Gen.shapeCasts_S1x16x64x256_S16x64x256 Cert.KernelIdeal.Gen.slices_S16x64x256_o0_0_0_S16x62x256
      Cert.KernelIdeal.Gen.shapeCasts_S16x62x256_S1x16x62x1x256 u r w z l

end Cert.KerSide

end
-- ==== Proof.KerValue.lean ====
/-
  The kernel's result as one function of its input.

  The grid has a point for every batch b and every block ohb of 16 output rows (four blocks cover the 62 rows; the last
  has 14 rows inside the array, and only those are written back). At the point (b, ohb) the body reads, for kh = 0, 1, 2,
  the 16 input rows starting at 16 ohb + kh, and stores columns kw … kw + 61 of them into slot k = 3 kh + kw of its
  output block. So the result array [8, 62, 62, 9, 256] holds x[b, oh + k / 3, ow + k % 3, l / 16, l % 16] at
  (b, oh, ow, k, l): the row oh + k / 3 is at most 63, so the two zero rows the host appended are never read into a row
  that is kept. The host then regroups the array to [496, 8928, 16], which is the patches of x.
-/
import proofs.«152610_j33225867002119_1_alg».proof.Proof.Gen.KernelIdeal.Frame
import proofs.«152610_j33225867002119_1_alg».proof.Proof.Patches
import proofs.«152610_j33225867002119_1_alg».proof.Proof.KerHost
import proofs.«152610_j33225867002119_1_alg».proof.Proof.KerBlock
import Idealize.ShloMosaic.Lib.StableHlo.Run
import Idealize.ShloMosaic.Lib.ValueIdx
import Idealize.ShloMosaic.Lib.Pipeline.Value

set_option maxRecDepth 16384

noncomputable section

namespace Cert.KerSide

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

/-- The kernel's result array [8, 62, 62, 9, 256] as one function of the input x: entry (b, oh, ow, k, l) is
    x[b, oh + k / 3, ow + k % 3, l / 16, l % 16] (slot k = 3 kh + kw, lane l = 16 c + d). -/
def slabs (x : S8x64x64x16x16.Idx → Elt F .f32) : S8x62x62x9x256.Idx → Elt F .f32 := fun j =>
  x (ix5 (j 0) (⟨(j 1).val + (j 3).val / 3, by have := (j 1).isLt; have : (j 1).val < 62 := this; have := (j 3).isLt; have : (j 3).val < 9 := this; omega⟩ : Fin 64)
    (⟨(j 2).val + (j 3).val % 3, by have := (j 2).isLt; have : (j 2).val < 62 := this; omega⟩ : Fin 64)
    (⟨(j 4).val / 16, by have := (j 4).isLt; have : (j 4).val < 256 := this; omega⟩ : Fin 16)
    (⟨(j 4).val % 16, by omega⟩ : Fin 16))

/-- The printed index maps over the grid: the input window's block index is (b, 0, 0, 0), the output window's
    (b, ohb, 0, 0, 0), where (b, ohb) are the point's coordinates; and how much of the output block lies inside the array. -/
theorem idx_facts : ∀ t : Fin cfg0.N,
    win0_0.index t (0 : Fin 4) = (grid0.coords t 0).val ∧ win0_0.index t (1 : Fin 4) = 0 ∧ win0_0.index t (2 : Fin 4) = 0
    ∧ win0_0.index t (3 : Fin 4) = 0
    ∧ win0_1.index t (0 : Fin 5) = (grid0.coords t 0).val ∧ win0_1.index t (1 : Fin 5) = (grid0.coords t 1).val
    ∧ win0_1.index t (2 : Fin 5) = 0 ∧ win0_1.index t (3 : Fin 5) = 0 ∧ win0_1.index t (4 : Fin 5) = 0
    ∧ win0_1.xsize (grid0.coords t) (0 : Fin 5) = 1
    ∧ win0_1.xsize (grid0.coords t) (1 : Fin 5) = min 16 (62 - 16 * (grid0.coords t 1).val)
    ∧ win0_1.xsize (grid0.coords t) (2 : Fin 5) = 62 ∧ win0_1.xsize (grid0.coords t) (3 : Fin 5) = 9
    ∧ win0_1.xsize (grid0.coords t) (4 : Fin 5) = 256 :=
  (by decide +kernel : ∀ t : Fin grid0.N, _)

/-- Every pair (b, ohb) is some point's coordinates. -/
theorem coords_onto : ∀ (b : Fin 8) (o : Fin 4), ∃ t : Fin cfg0.N, (grid0.coords t 0).val = b.val ∧ (grid0.coords t 1).val = o.val :=
  (by decide +kernel : ∀ (b : Fin 8) (o : Fin 4), ∃ t : Fin grid0.N, (grid0.coords t 0).val = b.val ∧ (grid0.coords t 1).val = o.val)

/-- What grid point t leaves in the output's staging block, in terms of the input: row r of the point's 16 output rows
    (while inside the array), column w, slot k, lane l. -/
theorem outs_read (c : Dev nD) (t : Fin cfg0.N) (r : Fin 16) (w : Fin 62) (k : Fin 9) (l : Fin 256)
    (hr : (grid0.coords t 1).val * 16 + r.val < 62) :
    outsAt0 m c t (ix5 (0 : Fin 1) r w k l)
      = m ((c : Thread nD τ).loc main_arg0)
          (ix5 (⟨(grid0.coords t 0).val, (grid0.coords t 0).isLt⟩ : Fin 8)
            (⟨(grid0.coords t 1).val * 16 + r.val + k.val / 3, by omega⟩ : Fin 64)
            (⟨w.val + k.val % 3, by omega⟩ : Fin 64) (⟨l.val / 16, by omega⟩ : Fin 16) (⟨l.val % 16, by omega⟩ : Fin 16)) := by
  obtain ⟨e0, e1, e2, e3, -⟩ := idx_facts t
  have ho : (grid0.coords t 1).val < 4 := (grid0.coords t 1).isLt
  unfold outsAt0
  refine (out_block (F := F) c (grid0.coords t) (ms0_0 t) (hs0_0 t) (ms0_1 t) (hs0_1 t) (iblk m c 0 t) r w k l).trans ?_
  show V m c main_v1 (((cfg0.win 0).blk t).view.emb
      (ix4 (0 : Fin 1) (⟨(grid0.coords t 1).val * 16 + k.val / 3 + r.val, by omega⟩ : Fin 66) (⟨w.val + k.val % 3, by omega⟩ : Fin 64) l)) = _
  have hemb : ((cfg0.win 0).blk t).view.emb
      (ix4 (0 : Fin 1) (⟨(grid0.coords t 1).val * 16 + k.val / 3 + r.val, by omega⟩ : Fin 66) (⟨w.val + k.val % 3, by omega⟩ : Fin 64) l)
      = ix4 (⟨(grid0.coords t 0).val, (grid0.coords t 0).isLt⟩ : Fin 8)
          (⟨(grid0.coords t 1).val * 16 + k.val / 3 + r.val, by omega⟩ : Fin 66) (⟨w.val + k.val % 3, by omega⟩ : Fin 64) l := by
    funext a; apply Fin.ext
    match a with
    | ⟨0, _⟩ => show win0_0.index t (0 : Fin 4) * 1 + 1 * 0 = (grid0.coords t 0).val; omega
    | ⟨1, _⟩ => show win0_0.index t (1 : Fin 4) * 66 + 1 * ((grid0.coords t 1).val * 16 + k.val / 3 + r.val) = (grid0.coords t 1).val * 16 + k.val / 3 + r.val; omega
    | ⟨2, _⟩ => show win0_0.index t (2 : Fin 4) * 64 + 1 * (w.val + k.val % 3) = w.val + k.val % 3; omega
    | ⟨3, _⟩ => show win0_0.index t (3 : Fin 4) * 256 + 1 * l.val = l.val; omega
  rw [hemb]
  refine (entry_read m c _ _ _ _ (by show (grid0.coords t 1).val * 16 + k.val / 3 + r.val < 64; omega)).trans ?_
  refine congrArg _ ?_
  funext a
  match a with
  | ⟨0, _⟩ => rfl
  | ⟨1, _⟩ => exact Fin.ext (by show (grid0.coords t 1).val * 16 + k.val / 3 + r.val = (grid0.coords t 1).val * 16 + r.val + k.val / 3; omega)
  | ⟨2, _⟩ => rfl
  | ⟨3, _⟩ => rfl
  | ⟨4, _⟩ => rfl

/-- WHAT POINT t WRITES BACK is its block of slabs of the input. -/
theorem flushed_eq (c : Dev nD) (t : Fin cfg0.N) :
    (dats m 0 c).flushed 1 t
      = ((cfg0.win 1).blk t).view.read (Elt F) (slabs (m ((c : Thread nD τ).loc main_arg0))) := by
  show (cfg0.win 1).cut (grid0.coords t) ((dats m 0 c).after 1 t) = _
  rw [after0_1]
  obtain ⟨-, -, -, -, f0, f1, f2, f3, f4, s0, s1, s2, s3, s4⟩ := idx_facts t
  have ho : (grid0.coords t 1).val < 4 := (grid0.coords t 1).isLt
  funext y
  have y0 : (y 0).val < 1 := by have h : (y 0).val < win0_1.xsize (grid0.coords t) (0 : Fin 5) := (y 0).isLt; omega
  have y1 : (y 1).val < min 16 (62 - 16 * (grid0.coords t 1).val) := by
    have h : (y 1).val < win0_1.xsize (grid0.coords t) (1 : Fin 5) := (y 1).isLt; omega
  have y2 : (y 2).val < 62 := by have h : (y 2).val < win0_1.xsize (grid0.coords t) (2 : Fin 5) := (y 2).isLt; omega
  have y3 : (y 3).val < 9 := by have h : (y 3).val < win0_1.xsize (grid0.coords t) (3 : Fin 5) := (y 3).isLt; omega
  have y4 : (y 4).val < 256 := by have h : (y 4).val < win0_1.xsize (grid0.coords t) (4 : Fin 5) := (y 4).isLt; omega
  show outsAt0 m c t ((cfg0.win 1).xinj (grid0.coords t) y) = _
  have hx : (cfg0.win 1).xinj (grid0.coords t) y
      = ix5 (0 : Fin 1) (⟨(y 1).val, by omega⟩ : Fin 16) (⟨(y 2).val, y2⟩ : Fin 62) (⟨(y 3).val, y3⟩ : Fin 9) (⟨(y 4).val, y4⟩ : Fin 256) := by
    funext a; apply Fin.ext
    match a with
    | ⟨0, _⟩ => show (y 0).val = 0; omega
    | ⟨1, _⟩ => rfl
    | ⟨2, _⟩ => rfl
    | ⟨3, _⟩ => rfl
    | ⟨4, _⟩ => rfl
  rw [hx]
  refine (outs_read m c t _ _ _ _ (by show (grid0.coords t 1).val * 16 + (y 1).val < 62; omega)).trans ?_
  rw [View.read_apply]
  unfold slabs
  refine congrArg _ ?_
  funext a
  match a with
  | ⟨0, _⟩ => exact Fin.ext (by show (grid0.coords t 0).val = win0_1.index t (0 : Fin 5) * 1 + 1 * (y 0).val; omega)
  | ⟨1, _⟩ => exact Fin.ext (by
      show (grid0.coords t 1).val * 16 + (y 1).val + (y 3).val / 3
        = (win0_1.index t (1 : Fin 5) * 16 + 1 * (y 1).val) + (win0_1.index t (3 : Fin 5) * 9 + 1 * (y 3).val) / 3
      omega)
  | ⟨2, _⟩ => exact Fin.ext (by
      show (y 2).val + (y 3).val % 3
        = (win0_1.index t (2 : Fin 5) * 62 + 1 * (y 2).val) + (win0_1.index t (3 : Fin 5) * 9 + 1 * (y 3).val) % 3
      omega)
  | ⟨3, _⟩ => exact Fin.ext (by show (y 4).val / 16 = (win0_1.index t (4 : Fin 5) * 256 + 1 * (y 4).val) / 16; omega)
  | ⟨4, _⟩ => exact Fin.ext (by show (y 4).val % 16 = (win0_1.index t (4 : Fin 5) * 256 + 1 * (y 4).val) % 16; omega)

/-- An index of the result array is in point t's block iff each coordinate is in the block's range on its axis, the
    range on the row axis cut at the array's end. -/
theorem mem_blk (t : Fin cfg0.N) (i : S8x62x62x9x256.Idx) :
    i ∈ ((cfg0.win 1).blk t).view.set ↔ ∀ a : Fin 5, win0_1.index t a * S1x16x62x9x256.size a ≤ (i a).val
      ∧ (i a).val < win0_1.index t a * S1x16x62x9x256.size a + win0_1.xsize (grid0.coords t) a := by
  show i ∈ ((View.whole main_v2).slice (win0_1.rect t)).set ↔ _
  rw [View.set_slice_whole, Rect.mem_set_unit]
  exact Iff.rfl

/-- Every index of the result array is in the block of the point (b, oh / 16): four row blocks of 16 cover the 62
    rows, the last one with its 14 rows inside the array. -/
theorem cover (i : S8x62x62x9x256.Idx) :
    ∃ t : Fin cfg0.N, (cfg0.win 1).flush t = true ∧ i ∈ ((cfg0.win 1).blk t).view.set := by
  have i0 : (i 0).val < 8 := (i 0).isLt
  have i1 : (i 1).val < 62 := (i 1).isLt
  have i2 : (i 2).val < 62 := (i 2).isLt
  have i3 : (i 3).val < 9 := (i 3).isLt
  have i4 : (i 4).val < 256 := (i 4).isLt
  obtain ⟨t, hb, ho⟩ := coords_onto (⟨(i 0).val, i0⟩ : Fin 8) (⟨(i 1).val / 16, by omega⟩ : Fin 4)
  have hb' : (grid0.coords t 0).val = (i 0).val := hb
  have ho' : (grid0.coords t 1).val = (i 1).val / 16 := ho
  obtain ⟨-, -, -, -, f0, f1, f2, f3, f4, s0, s1, s2, s3, s4⟩ := idx_facts t
  refine ⟨t, flush0_1 t, ?_⟩
  rw [mem_blk]
  intro a
  match a with
  | ⟨0, _⟩ =>
    show win0_1.index t (0 : Fin 5) * 1 ≤ (i 0).val ∧ (i 0).val < win0_1.index t (0 : Fin 5) * 1 + win0_1.xsize (grid0.coords t) (0 : Fin 5)
    omega
  | ⟨1, _⟩ =>
    show win0_1.index t (1 : Fin 5) * 16 ≤ (i 1).val ∧ (i 1).val < win0_1.index t (1 : Fin 5) * 16 + win0_1.xsize (grid0.coords t) (1 : Fin 5)
    omega
  | ⟨2, _⟩ =>
    show win0_1.index t (2 : Fin 5) * 62 ≤ (i 2).val ∧ (i 2).val < win0_1.index t (2 : Fin 5) * 62 + win0_1.xsize (grid0.coords t) (2 : Fin 5)
    omega
  | ⟨3, _⟩ =>
    show win0_1.index t (3 : Fin 5) * 9 ≤ (i 3).val ∧ (i 3).val < win0_1.index t (3 : Fin 5) * 9 + win0_1.xsize (grid0.coords t) (3 : Fin 5)
    omega
  | ⟨4, _⟩ =>
    show win0_1.index t (4 : Fin 5) * 256 ≤ (i 4).val ∧ (i 4).val < win0_1.index t (4 : Fin 5) * 256 + win0_1.xsize (grid0.coords t) (4 : Fin 5)
    omega

/-- THE RESULT ARRAY after the region: slabs of the input. -/
theorem final (c : Dev nD) : (dats m 0 c).arrAt 1 cfg0.N = slabs (m ((c : Thread nD τ).loc main_arg0)) :=
  (dats m 0 c).arrAt_eq_of_cover 1 _ (fun t _ => flushed_eq m c t) cover

/-- After the region the host regroups the result array to [496, 8928, 16]. -/
theorem tail_eq (c : Dev nD) :
    Pipeline.afterTail₀ cfgs (dats m) 0 (V0 m) [hostOps1] c main_v3
      = shapeCast S496x8928x16 (slabs (m ((c : Thread nD τ).loc main_arg0))) Facts₀.shapeCasts_S8x62x62x9x256_S496x8928x16 := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = slabs (m ((c : Thread nD τ).loc main_arg0)) :=
    (Pipeline.withArrays_arr spec0 launch0.win.arr_inj c _ _ 1).trans (final m c)
  rw [hw]
  rfl

/-- The regrouped slabs are the patches: (r, q, d) of [496, 8928, 16] sits at the row-major position of
    (r / 62, r % 62, q / 144, q / 16 % 9, 16 (q % 16) + d) in [8, 62, 62, 9, 256], and slot k = q / 16 % 9 has
    k / 3 = q / 48 % 3 and k % 3 = q / 16 % 3. -/
theorem regrouped_slabs (x : S8x64x64x16x16.Idx → Elt F .f32) :
    shapeCast S496x8928x16 (slabs x) Facts₀.shapeCasts_S8x62x62x9x256_S496x8928x16 = Cert.Patches.patches x := by
  funext i
  obtain ⟨r, q, d, rfl⟩ : ∃ (r : Fin 496) (q : Fin 8928) (d : Fin 16), i = ix3 r q d := ⟨i 0, i 1, i 2, eq_ix3 i⟩
  have hr : r.val < 496 := r.isLt
  have hq : q.val < 8928 := q.isLt
  have hd : d.val < 16 := d.isLt
  rw [Cert.Patches.patches_apply]
  refine (shapeCast_apply (s := S8x62x62x9x256) (t := S496x8928x16) _ _ _
    (ix5 (⟨r.val / 62, by omega⟩ : Fin 8) (⟨r.val % 62, by omega⟩ : Fin 62) (⟨q.val / 144, by omega⟩ : Fin 62)
      (⟨q.val / 16 % 9, by omega⟩ : Fin 9) (⟨q.val % 16 * 16 + d.val, by omega⟩ : Fin 256))
    (by rw [Shape.rowMajor_val_five, Shape.rowMajor_val_three]
        show ((((r.val / 62) * 62 + r.val % 62) * 62 + q.val / 144) * 9 + q.val / 16 % 9) * 256 + (q.val % 16 * 16 + d.val)
          = (r.val * 8928 + q.val) * 16 + d.val
        omega)).trans ?_
  unfold slabs Cert.Patches.srcOf
  refine congrArg x ?_
  funext a
  match a with
  | ⟨0, _⟩ => rfl
  | ⟨1, _⟩ => exact Fin.ext (by show r.val % 62 + q.val / 16 % 9 / 3 = r.val % 62 + q.val / 48 % 3; omega)
  | ⟨2, _⟩ => exact Fin.ext (by show q.val / 144 + q.val / 16 % 9 % 3 = q.val / 144 + q.val / 16 % 3; omega)
  | ⟨3, _⟩ => exact Fin.ext (by show (q.val % 16 * 16 + d.val) / 16 = q.val % 16; omega)
  | ⟨4, _⟩ => exact Fin.ext (by show (q.val % 16 * 16 + d.val) % 16 = d.val; omega)

/-- THE KERNEL'S RUN: every weakly fair execution terminates with the result buffer at the patches of the input and the
    input unchanged. -/
theorem run : θ_run defs (onTc (τ := τ) (main (F := F))) ⟨m, fun _ => 0, ρ⟩ fun r => ∀ c : Dev nD,
      r.2.mem ((c.tc : Thread nD τ).loc main_v3) = Cert.Patches.patches (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v3 (Pipeline.mem_restRefs_of main_v3 (by decide) (by decide))).trans
          ((tail_eq m c).trans (regrouped_slabs _)),
        ((h c).2 main_arg0 (Pipeline.mem_restRefs_of main_arg0 (by decide) (by decide))).trans (W_main_arg0 m (dats m) c)⟩)
    (run_main m ρ)

end Cert.KerSide

end
-- ==== Proof.RefTerm.lean ====
/-
  The reference's result as ONE term of its input array x, built from the operations @main runs in order.

  jnp.take along an axis with a table of positions does three things: a negative position p is first replaced by
  p + 64 (the axis has 64 entries); the gather then reads the axis at the (clamped) position; and an entry whose
  position is outside 0 … 63 is replaced by the fill value. The reference takes rows with the table of oh + kh and
  then columns with the table of ow + kw, transposes the two middle axes and regroups to [496, 8928, 16].
-/
import proofs.«152610_j33225867002119_1_alg».proof.Proof.Gen.ReferenceIdeal

noncomputable section

namespace Cert.RefSide

open Cert.ReferenceIdeal Idealize.ShloMosaic Idealize.SL.Sem
open Cert.ReferenceIdeal.Facts₀

variable {F : FTy → Type} [FloatOps F]

/-- The table of row positions oh + kh and the table of column positions ow + kw, as arrays [62, 3]. -/
def rowTab : IVec S62x3 32 := fun i => lit0 (S62x3.rowMajor i)
def colTab : IVec S62x3 32 := fun i => lit1 (S62x3.rowMajor i)

/-- A table of positions with the negative ones moved up by 64, as the gather's start indices [62, 3, 1]. -/
def wrapped (tab : IVec S62x3 32) : IVec S62x3x1 32 :=
  broadcastInDim S62x3x1 ![0, 1] bcast_S62x3_S62x3x1_0_1
    (select (cmpi .slt tab (broadcastInDim S62x3 ![] bcast_S_S62x3 (constantI S_ 32 0#32)))
      (addi tab (broadcastInDim S62x3 ![] bcast_S_S62x3 (constantI S_ 32 64#32))) tab)

/-- Which positions lie in 0 … 63. -/
def inRange (p : IVec S62x3x1 32) : IVec S62x3 1 :=
  Host.reduce IntOp.andi
    (andi (cmpi .sge p (broadcastInDim S62x3x1 ![] bcast_S_S62x3x1 (constantI S_ 32 0#32)))
      (cmpi .sle p (broadcastInDim S62x3x1 ![0, 1, 2] bcast_S1x1x1_S62x3x1_0_1_2
        (broadcastInDim S1x1x1 ![2] bcast_S1_S1x1x1_2 (constantI S1 32 63#32)))))
    (constantI S_ 1 1#1) reducesTo_S62x3x1_S62x3_d2 h_S_

/-- The rows taken: [8, 62, 3, 64, 16, 16]. -/
def takeRows (x : FVec F S8x64x64x16x16 .f32) (tab : IVec S62x3 32) : FVec F S8x62x3x64x16x16 .f32 :=
  select (broadcastInDim S8x62x3x64x16x16 ![1, 2] bcast_S62x3_S8x62x3x64x16x16_1_2 (inRange (wrapped tab)))
    (Host.gather gather_S8x64x64x16x16_S62x3x1_S8x62x3x64x16x16_0345_1_n_n_1_2_81641616 x (wrapped tab))
    (broadcastInDim S8x62x3x64x16x16 ![] bcast_S_S8x62x3x64x16x16 (constant S_ .f32 0x7FC00000#32))

/-- The columns taken of that: [8, 62, 3, 62, 3, 16, 16]. -/
def takeCols (y : FVec F S8x62x3x64x16x16 .f32) (tab : IVec S62x3 32) : FVec F S8x62x3x62x3x16x16 .f32 :=
  select (broadcastInDim S8x62x3x62x3x16x16 ![3, 4] bcast_S62x3_S8x62x3x62x3x16x16_3_4 (inRange (wrapped tab)))
    (Host.gather gather_S8x62x3x64x16x16_S62x3x1_S8x62x3x62x3x16x16_01256_3_n_n_3_2_862311616 y (wrapped tab))
    (broadcastInDim S8x62x3x62x3x16x16 ![] bcast_S_S8x62x3x62x3x16x16 (constant S_ .f32 0x7FC00000#32))

/-- The reference's result. -/
def refTerm (x : FVec F S8x64x64x16x16 .f32) : FVec F S496x8928x16 .f32 :=
  shapeCast S496x8928x16
    (transpose S8x62x62x3x3x16x16 [0, 1, 3, 2, 4, 5, 6] (takeCols (takeRows x rowTab) colTab)
      transposes_S8x62x3x62x3x16x16_S8x62x62x3x3x16x16_0_1_3_2_4_5_6)
    shapeCasts_S8x62x62x3x3x16x16_S496x8928x16

end Cert.RefSide

end
-- ==== Proof.RefRun.lean ====
/-
  The run of the reference program.

  @main is a straight line once each call is replaced by its callee's body: the two position tables, the
  twenty-three operations of the row take (among them the one select of the where it calls) over the first call's
  buffers, the twenty-three of the column take over the second call's, then the transpose of the two middle axes
  and the regrouping to [496, 8928, 16]: fifty operations. Each operation writes its one result buffer and leaves
  every other buffer alone, so what the last buffer holds at the end is the operations' functions composed in the
  order the values are used, and that composition is the term refTerm of the input array. The input's buffer is
  written by no operation and ends as it began.
-/
import proofs.«152610_j33225867002119_1_alg».proof.Proof.RefTerm
import Idealize.ShloMosaic.Lib.StableHlo.Run

noncomputable section

namespace Cert.RefSide

open Cert.ReferenceIdeal Idealize.ShloMosaic Idealize.ShloMosaic.TcCoe Idealize.SL.Sem Idealize.ShloMosaic.StableHlo
open Cert.ReferenceIdeal.Facts₀

variable {F : FTy → Type} [FloatOps F]

/-- @main's fifty operations in order, each call replaced by its callee's operations over that call's own
    buffers: the tables of row and column positions; for the row take the zero and its broadcast, the test for a
    negative position, 64 and its broadcast, the position moved up by 64, the select between the two (the where),
    the positions as start indices, the bounds 63 and 0 broadcast, the two comparisons and their conjunction, its
    reduction over the unit axis, the gather, the mask broadcast to the result, the fill value and its broadcast,
    the select; the same again for the column take; the transpose; the reshape. -/
abbrev ops : List (HloOp τ sig (Elt F)) :=
  [ nullary main_c (fun i => lit0 (S62x3.rowMajor i)),
    nullary main_c_0 (fun i => lit1 (S62x3.rowMajor i)),
    TRef.nullary main_call0.c (constantI S_ 32 0#32),
    TRef.unary main_call0.c main_call0.v0 (broadcastInDim S62x3 ![] bcast_S_S62x3),
    TRef.binary (.of main_c) main_call0.v0 main_call0.v1 (cmpi .slt),
    TRef.nullary main_call0.c_0 (constantI S_ 32 64#32),
    TRef.unary main_call0.c_0 main_call0.v2 (broadcastInDim S62x3 ![] bcast_S_S62x3),
    TRef.binary (.of main_c) main_call0.v2 main_call0.v3 addi,
    TRef.ternary main_call0.v1 main_call0.v3 (.of main_c) main_call0.call0.v0 select,
    TRef.unary main_call0.call0.v0 main_call0.v5 (broadcastInDim S62x3x1 ![0, 1] bcast_S62x3_S62x3x1_0_1),
    TRef.nullary main_call0.c_1 (constantI S1 32 63#32),
    TRef.nullary main_call0.c_2 (constantI S_ 32 0#32),
    TRef.unary main_call0.c_2 main_call0.v6 (broadcastInDim S62x3x1 ![] bcast_S_S62x3x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S62x3x1 ![0, 1, 2] bcast_S1x1x1_S62x3x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S62x3x1_S62x3_d2 h_S_),
    TRef.binary (.of main_arg0) main_call0.v5 main_call0.v13 (fun x i => Host.gather gather_S8x64x64x16x16_S62x3x1_S8x62x3x64x16x16_0345_1_n_n_1_2_81641616 x i),
    TRef.unary main_call0.v12 main_call0.v14 (broadcastInDim S8x62x3x64x16x16 ![1, 2] bcast_S62x3_S8x62x3x64x16x16_1_2),
    TRef.nullary main_call0.cst (constant S_ .f32 0x7FC00000#32),
    TRef.unary main_call0.cst main_call0.v15 (broadcastInDim S8x62x3x64x16x16 ![] bcast_S_S8x62x3x64x16x16),
    TRef.ternary main_call0.v14 main_call0.v13 main_call0.v15 main_call0.v16 select,
    TRef.nullary main_call1.c (constantI S_ 32 0#32),
    TRef.unary main_call1.c main_call1.v0 (broadcastInDim S62x3 ![] bcast_S_S62x3),
    TRef.binary (.of main_c_0) main_call1.v0 main_call1.v1 (cmpi .slt),
    TRef.nullary main_call1.c_0 (constantI S_ 32 64#32),
    TRef.unary main_call1.c_0 main_call1.v2 (broadcastInDim S62x3 ![] bcast_S_S62x3),
    TRef.binary (.of main_c_0) main_call1.v2 main_call1.v3 addi,
    TRef.ternary main_call1.v1 main_call1.v3 (.of main_c_0) main_call1.call0.v0 select,
    TRef.unary main_call1.call0.v0 main_call1.v5 (broadcastInDim S62x3x1 ![0, 1] bcast_S62x3_S62x3x1_0_1),
    TRef.nullary main_call1.c_1 (constantI S1 32 63#32),
    TRef.nullary main_call1.c_2 (constantI S_ 32 0#32),
    TRef.unary main_call1.c_2 main_call1.v6 (broadcastInDim S62x3x1 ![] bcast_S_S62x3x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S62x3x1 ![0, 1, 2] bcast_S1x1x1_S62x3x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S62x3x1_S62x3_d2 h_S_),
    TRef.binary (.of main_v0) main_call1.v5 main_call1.v13 (fun x i => Host.gather gather_S8x62x3x64x16x16_S62x3x1_S8x62x3x62x3x16x16_01256_3_n_n_3_2_862311616 x i),
    TRef.unary main_call1.v12 main_call1.v14 (broadcastInDim S8x62x3x62x3x16x16 ![3, 4] bcast_S62x3_S8x62x3x62x3x16x16_3_4),
    TRef.nullary main_call1.cst (constant S_ .f32 0x7FC00000#32),
    TRef.unary main_call1.cst main_call1.v15 (broadcastInDim S8x62x3x62x3x16x16 ![] bcast_S_S8x62x3x62x3x16x16),
    TRef.ternary main_call1.v14 main_call1.v13 main_call1.v15 main_call1.v16 select,
    unary main_v1 main_v2 ((transpose S8x62x62x3x3x16x16 [0, 1, 3, 2, 4, 5, 6] · transposes_S8x62x3x62x3x16x16_S8x62x62x3x3x16x16_0_1_3_2_4_5_6) : (⟨S8x62x3x62x3x16x16, .f32⟩ : BufTy).Contents (Elt F) → (⟨S8x62x62x3x3x16x16, .f32⟩ : BufTy).Contents (Elt F)),
    reshape main_v2 main_v3 rfl shapeCasts_S8x62x62x3x3x16x16_S496x8928x16 ]

-- fifty binds re-associated: the rewrite under the chain recurses once per statement
set_option maxRecDepth 4096 in
/-- @main is that straight line: with the callees' bodies unfolded at their calls, both sides are one chain of
    operation steps once sequencing is re-associated. -/
theorem main_eq (c : Dev nD) : main (F := F) c = seq ops := by
  simp only [main, fn_take.body, fn_take_0.body, fn_where.body, seq, bind_assoc, pure_bind]

/-- The signature scopes no buffer and no semaphore: every buffer is a tensor value's. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., nullary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., reshape_bufs_sub ..⟩

attribute [local irreducible] Host.reduce Host.gather select transpose shapeCast broadcastInDim in
set_option maxRecDepth 8192 in
set_option maxHeartbeats 400000 in
/-- The fold at the result buffer is refTerm of the input's contents, by computation: the fold unrolled, each
    operation's result read at the buffer it writes and passed over at any other, and the typed references'
    transports the identity at these literal buffers. The reductions, gathers, selects, broadcasts, the transpose
    and the regrouping stay folded meanwhile: the equation never looks inside them. -/
theorem out_eq (V : Valuation τ sig (Elt F)) :
    after ops V (main_v3 : DevRef τ sig) = refTerm (V (main_arg0 : DevRef τ sig)) := by
  unfold refTerm takeCols takeRows inRange wrapped rowTab colTab
  simp only [after_cons, after_nil]
  rfl

/-- No operation writes the input's buffer. -/
theorem arg0_eq (V : Valuation τ sig (Elt F)) :
    after ops V (main_arg0 : DevRef τ sig) = V (main_arg0 : DevRef τ sig) := by
  simp only [after_cons, after_nil]
  rfl

/-- On every device, for any float values, from any memory with zero counters: every weakly fair execution of
    @main terminates with the result buffer at refTerm of the input's launch contents and the input unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v3).trans (out_eq _), (h c main_arg0).trans (arg0_eq _)⟩)
    (run_seq scopedRefs_eq scopedSems_eq defs main (fun _ => ops) main_eq (fun _ => ops_sub) m ρ)

end Cert.RefSide

end
-- ==== Proof.RefLayout.lean ====
/-
  The reference's last two operations read at an index.

  The reference ends by exchanging the two middle axes of an array Y of shape [8, 62, 3, 62, 3, 16, 16], indexed
  (b, oh, kh, ow, kw, c, d), which gives T of shape [8, 62, 62, 3, 3, 16, 16] with
  T (b, oh, ow, kh, kw, c, d) = Y (b, oh, kh, ow, kw, c, d), and then regrouping T as [496, 8928, 16]. A regrouping
  keeps the row-major position, and (r, q, d) of [496, 8928, 16] sits at position (r · 8928 + q) · 16 + d. Since
  496 = 8 · 62, 8928 = 62 · 144 and 144 = 3 · 3 · 16, that is the position of
  (r / 62, r % 62, q / 144, q / 48 % 3, q / 16 % 3, q % 16, d) in T.
-/
import proofs.«152610_j33225867002119_1_alg».proof.Proof.RefTerm
import proofs.«152610_j33225867002119_1_alg».proof.Proof.Patches
import Idealize.ShloMosaic.Lib.ValueIdx
import Idealize.ShloMosaic.Lib.Pipeline.Value

noncomputable section

namespace Cert.RefSide

open Cert.ReferenceIdeal Idealize.ShloMosaic Idealize.SL.Sem
open Cert.ReferenceIdeal.Facts₀
open Idealize.ShloMosaic.ValueIdx

variable {F : FTy → Type} [FloatOps F]

/-- Rank 7: the row-major position as one sum of products. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5
          + (i 5).val) * d 6 + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- The regrouped transpose at (r, q, d) is Y at (r / 62, r % 62, q / 48 % 3, q / 144, q / 16 % 3, q % 16, d). -/
theorem layout_apply {α : Type} (Y : S8x62x3x62x3x16x16.Idx → α) (r : Fin 496) (q : Fin 8928) (d : Fin 16) :
    shapeCast S496x8928x16
        (transpose S8x62x62x3x3x16x16 [0, 1, 3, 2, 4, 5, 6] Y Facts₀.transposes_S8x62x3x62x3x16x16_S8x62x62x3x3x16x16_0_1_3_2_4_5_6)
        Facts₀.shapeCasts_S8x62x62x3x3x16x16_S496x8928x16 (ix3 r q d)
      = Y (Cert.Patches.ix7 (⟨r.val / 62, by omega⟩ : Fin 8) (⟨r.val % 62, by omega⟩ : Fin 62) (⟨q.val / 48 % 3, by omega⟩ : Fin 3)
            (⟨q.val / 144, by omega⟩ : Fin 62) (⟨q.val / 16 % 3, by omega⟩ : Fin 3) (⟨q.val % 16, by omega⟩ : Fin 16) d) := by
  have hr : r.val < 496 := r.isLt
  have hq : q.val < 8928 := q.isLt
  have hd : d.val < 16 := d.isLt
  -- the regrouping: (r, q, d) and (r / 62, r % 62, q / 144, q / 48 % 3, q / 16 % 3, q % 16, d) have one position
  refine (shapeCast_apply _ _ _
    (Cert.Patches.ix7 (⟨r.val / 62, by omega⟩ : Fin 8) (⟨r.val % 62, by omega⟩ : Fin 62) (⟨q.val / 144, by omega⟩ : Fin 62)
      (⟨q.val / 48 % 3, by omega⟩ : Fin 3) (⟨q.val / 16 % 3, by omega⟩ : Fin 3) (⟨q.val % 16, by omega⟩ : Fin 16) d)
    (by rw [rowMajor_val_seven, Shape.rowMajor_val_three]
        show ((((((r.val / 62) * 62 + r.val % 62) * 62 + q.val / 144) * 3 + q.val / 48 % 3) * 3 + q.val / 16 % 3) * 16
            + q.val % 16) * 16 + d.val = (r.val * 8928 + q.val) * 16 + d.val
        omega)).trans ?_
  -- the exchange of axes 2 and 3
  exact transpose_apply _ _ _ _
    (Cert.Patches.ix7 (⟨r.val / 62, by omega⟩ : Fin 8) (⟨r.val % 62, by omega⟩ : Fin 62) (⟨q.val / 48 % 3, by omega⟩ : Fin 3)
      (⟨q.val / 144, by omega⟩ : Fin 62) (⟨q.val / 16 % 3, by omega⟩ : Fin 3) (⟨q.val % 16, by omega⟩ : Fin 16) d)
    (fun b => match b with
      | ⟨0, _⟩ => rfl | ⟨1, _⟩ => rfl | ⟨2, _⟩ => rfl | ⟨3, _⟩ => rfl | ⟨4, _⟩ => rfl | ⟨5, _⟩ => rfl | ⟨6, _⟩ => rfl)

end Cert.RefSide

end
-- ==== Proof.RefTakes.lean ====
/-
  The reference's two takes, read at one index.

  Both tables hold the word a + k at (a, k), with a < 62 and k < 3, so every position lies in 0 … 63. For such a
  position p: the signed test p < 0 fails, so the wrapped position is p itself; 0 ≤ p and p ≤ 63 hold, so the
  range mask is 1 everywhere and each select keeps the gathered value, never the fill; and the gather's clamp of
  the signed position into 0 … 63 changes nothing. The row gather reads operand axis 1 at the position and every
  other operand axis at the result's own coordinate; the column gather does the same on operand axis 3. Composed:
  the element at (b, oh, kh, ow, kw, c, d) is x at (b, oh + kh, ow + kw, c, d).
-/
import proofs.«152610_j33225867002119_1_alg».proof.Proof.RefTerm
import proofs.«152610_j33225867002119_1_alg».proof.Proof.Patches
import Idealize.ShloMosaic.Lib.ValueIdx
import Idealize.ShloMosaic.Lib.ValueIdxRank6
import Idealize.ShloMosaic.Lib.StableHlo.Predicate
import Idealize.ShloMosaic.Lib.Pipeline.Value
import Idealize.ShloMosaic.PureOps.Reduce

noncomputable section

namespace Cert.RefSide

open Cert.ReferenceIdeal Idealize.ShloMosaic Idealize.SL.Sem
open Cert.ReferenceIdeal.Facts₀
open Idealize.ShloMosaic.ValueIdx

variable {F : FTy → Type} [FloatOps F]

namespace Takes

/-! ## The tables: entry (a, k) is the word a + k -/

/-- At flat position n (row-major over [62, 3]) each table holds n / 3 + n % 3: checked entry by entry. -/
theorem lit0_val : ∀ n : Fin 186, lit0 n = BitVec.ofNat 32 (n.val / 3 + n.val % 3) := by decide +kernel
theorem lit1_val : ∀ n : Fin 186, lit1 n = BitVec.ofNat 32 (n.val / 3 + n.val % 3) := by decide +kernel

/-- The flat position of (a, k) is 3 a + k, whose quotient and remainder by 3 are a and k. -/
theorem flat_word (a k m : Nat) (hk : k < 3) (hm : m = a * 3 + k) :
    BitVec.ofNat 32 (m / 3 + m % 3) = BitVec.ofNat 32 (a + k) := by
  congr 1; omega

theorem rowTab_apply (a : Fin 62) (k : Fin 3) : rowTab (ix2 a k) = BitVec.ofNat 32 (a.val + k.val) :=
  (lit0_val (S62x3.rowMajor (ix2 a k))).trans
    (flat_word a.val k.val _ k.isLt (Shape.rowMajor_val_two (ix2 a k)))

theorem colTab_apply (a : Fin 62) (k : Fin 3) : colTab (ix2 a k) = BitVec.ofNat 32 (a.val + k.val) :=
  (lit1_val (S62x3.rowMajor (ix2 a k))).trans
    (flat_word a.val k.val _ k.isLt (Shape.rowMajor_val_two (ix2 a k)))

/-- A number below 64 is its own 32-bit word's value. -/
theorem toNat_small (n : Nat) (h : n < 64) : (BitVec.ofNat 32 n).toNat = n := by
  rw [BitVec.toNat_ofNat]; exact Nat.mod_eq_of_lt (by omega)

theorem rowTab_toNat (a : Fin 62) (k : Fin 3) : (rowTab (ix2 a k)).toNat = a.val + k.val := by
  rw [rowTab_apply, toNat_small _ (by omega)]

theorem colTab_toNat (a : Fin 62) (k : Fin 3) : (colTab (ix2 a k)).toNat = a.val + k.val := by
  rw [colTab_apply, toNat_small _ (by omega)]

/-! ## Words in 0 … 63 -/

/-- Such a word is not negative, so moving negative positions up by 64 leaves it alone. -/
theorem wrap_word (v : BitVec 32) (hv : v.toNat < 64) :
    Scalar.select (IntOp.cmpi .slt v 0#32) (IntOp.addi v 64#32) v = v := by
  have h : ¬ IntOp.cmpi .slt v 0#32 = 1#1 := by
    rw [StableHlo.Predicate.slt_iff_toNat (by omega) (by decide)]
    exact Nat.not_lt_zero _
  rw [eq_zero_of_ne_one h, select_zero]

/-- Such a word passes both range tests 0 ≤ v and v ≤ 63. -/
theorem inrange_word (v : BitVec 32) (hv : v.toNat < 64) :
    IntOp.andi (IntOp.cmpi .sge v 0#32) (IntOp.cmpi .sle v 63#32) = 1#1 := by
  rw [(StableHlo.Predicate.sge_iff_toNat (a := v) (b := 0#32) (by omega) (by decide)).2 (Nat.zero_le _),
    (StableHlo.Predicate.sle_iff_toNat (a := v) (b := 63#32) (by omega) (by decide)).2 (by show v.toNat ≤ 63; omega)]
  rfl

/-- Such a word reads the same signed and unsigned. -/
theorem clamp_word (v : BitVec 32) (hv : v.toNat < 64) : v.toInt.toNat = v.toNat := by
  rw [StableHlo.Predicate.toInt_eq_toNat_of_lt (by omega)]; rfl

/-! ## The wrapped positions and the range mask -/

/-- The wrapped table at (a, k, 0) is the table's entry, when that entry is in 0 … 63. -/
theorem wrapped_apply (tab : IVec S62x3 32) (a : Fin 62) (k : Fin 3) (z : Fin 1) (h : (tab (ix2 a k)).toNat < 64) :
    wrapped tab (ix3 a k z) = tab (ix2 a k) := by
  unfold wrapped
  rw [broadcastInDim_apply _ _ _ (ix3 a k z) (ix2 a k) (fun e => by
    match e with
    | ⟨0, _⟩ => rfl
    | ⟨1, _⟩ => rfl)]
  exact wrap_word _ h

/-- A left fold by and from 1 over bits that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- Positions all in 0 … 63 pass the range test everywhere: the and-reduce runs over bits that are all 1. -/
theorem inRange_one (p : IVec S62x3x1 32) (hp : ∀ i, (p i).toNat < 64) (j : S62x3.Idx) : inRange p j = 1#1 := by
  unfold inRange
  rw [Host.reduce_eq_foldl]
  refine foldl_andi_one _ _ fun i _ => ?_
  exact inrange_word (p i) (hp i)

theorem inRange_wrapped (tab : IVec S62x3 32) (h : ∀ a k, (tab (ix2 a k)).toNat < 64) (j : S62x3.Idx) :
    inRange (wrapped tab) j = 1#1 := by
  refine inRange_one _ (fun i => ?_) j
  obtain ⟨a, k, z, rfl⟩ : ∃ a k z, i = ix3 a k z := ⟨_, _, _, eq_ix3 i⟩
  rw [wrapped_apply tab a k z (h a k)]
  exact h a k

/-! ## The two gathers, read at an index -/

abbrev gRows := gather_S8x64x64x16x16_S62x3x1_S8x62x3x64x16x16_0345_1_n_n_1_2_81641616
abbrev gCols := gather_S8x62x3x64x16x16_S62x3x1_S8x62x3x62x3x16x16_01256_3_n_n_3_2_862311616

section
variable {s si t : Shape} (g : GatherDims s si t)

/-- On an operand axis that is kept (neither collapsed nor batching) and not named by the start index map, the
    operand coordinate is the result's coordinate on the offset axis in that position. -/
theorem coord_kept {w : Nat} (j : t.Idx) (idx : IVec si w) (a : Fin s.rank) (h1 : a ∉ g.startIndexMap)
    (h2 : a ∉ g.operandBatchingDims) (h3 : a ∉ g.collapsedSliceDims) :
    (g.operandIdx j idx a).val
      = (j (g.offsetDims[g.sKept.idxOf a]'(by
          rw [g.offset_length]; exact List.idxOf_lt_length_iff.2 ((g.mem_sKept a).2 ⟨h3, h2⟩)))).val := by
  show g.start j idx a + g.batchCoord j a + g.offCoord j a = _
  rw [g.batchCoord_eq_zero j a h2, Nat.add_zero]
  unfold GatherDims.start GatherDims.offCoord
  rw [dif_neg h1, dif_pos ((g.mem_sKept a).2 ⟨h3, h2⟩), Nat.zero_add]

/-- On a collapsed operand axis named by the start index map, the operand coordinate is the start index read
    signed, clamped so that the slice fits. -/
theorem coord_start {w : Nat} (j : t.Idx) (idx : IVec si w) (a : Fin s.rank) (h1 : a ∈ g.startIndexMap)
    (h2 : a ∉ g.operandBatchingDims) (h3 : a ∈ g.collapsedSliceDims) :
    (g.operandIdx j idx a).val
      = min (idx (g.siIdx j ⟨g.startIndexMap.idxOf a, List.idxOf_lt_length_iff.2 h1⟩)).toInt.toNat
          (s.size a - g.sliceSizes a) := by
  show g.start j idx a + g.batchCoord j a + g.offCoord j a = _
  rw [g.batchCoord_eq_zero j a h2, g.offCoord_eq_zero j a (fun h => ((g.mem_sKept a).1 h).1 h3)]
  simp only [Nat.add_zero]
  unfold GatherDims.start
  rw [dif_pos h1]
end

/-- The row gather at (b, oh, kh, w, c, d) reads the operand at row p, the signed value of the start index at
    (oh, kh, 0), when that value is below 64; the other four coordinates pass through. -/
theorem gatherRows_apply {α : Type} (x : S8x64x64x16x16.Idx → α) (idx : IVec S62x3x1 32)
    (b : Fin 8) (oh : Fin 62) (kh : Fin 3) (w : Fin 64) (c d : Fin 16) (p : Fin 64)
    (hp : (idx (ix3 oh kh (0 : Fin 1))).toInt.toNat = p.val) :
    Host.gather gRows x idx (ix6 b oh kh w c d) = x (ix5 b p w c d) := by
  unfold Host.gather
  congr 1
  funext a
  refine Fin.ext ?_
  match a with
  | ⟨0, _⟩ =>
    exact (coord_kept gRows _ idx (⟨0, by decide⟩ : Fin 5) (by decide) (by decide) (by decide)).trans rfl
  | ⟨1, _⟩ =>
    refine (coord_start gRows _ idx (⟨1, by decide⟩ : Fin 5) (by decide) (by decide) (by decide)).trans ?_
    have hsi : gRows.siIdx (ix6 b oh kh w c d) ⟨List.idxOf (⟨1, by decide⟩ : Fin 5) gRows.startIndexMap,
        List.idxOf_lt_length_iff.2 (by decide)⟩ = ix3 oh kh (0 : Fin 1) := by
      funext e; refine Fin.ext ?_
      match e with
      | ⟨0, _⟩ => rfl
      | ⟨1, _⟩ => rfl
      | ⟨2, _⟩ => rfl
    rw [hsi, hp]
    show min p.val (64 - 1) = p.val
    omega
  | ⟨2, _⟩ =>
    exact (coord_kept gRows _ idx (⟨2, by decide⟩ : Fin 5) (by decide) (by decide) (by decide)).trans rfl
  | ⟨3, _⟩ =>
    exact (coord_kept gRows _ idx (⟨3, by decide⟩ : Fin 5) (by decide) (by decide) (by decide)).trans rfl
  | ⟨4, _⟩ =>
    exact (coord_kept gRows _ idx (⟨4, by decide⟩ : Fin 5) (by decide) (by decide) (by decide)).trans rfl

/-- The column gather at (b, oh, kh, ow, kw, c, d) reads the operand at column p, the signed value of the start
    index at (ow, kw, 0), when that value is below 64; the other five coordinates pass through. -/
theorem gatherCols_apply {α : Type} (y : S8x62x3x64x16x16.Idx → α) (idx : IVec S62x3x1 32)
    (b : Fin 8) (oh : Fin 62) (kh : Fin 3) (ow : Fin 62) (kw : Fin 3) (c d : Fin 16) (p : Fin 64)
    (hp : (idx (ix3 ow kw (0 : Fin 1))).toInt.toNat = p.val) :
    Host.gather gCols y idx (Cert.Patches.ix7 b oh kh ow kw c d) = y (ix6 b oh kh p c d) := by
  unfold Host.gather
  congr 1
  funext a
  refine Fin.ext ?_
  match a with
  | ⟨0, _⟩ =>
    exact (coord_kept gCols _ idx (⟨0, by decide⟩ : Fin 6) (by decide) (by decide) (by decide)).trans rfl
  | ⟨1, _⟩ =>
    exact (coord_kept gCols _ idx (⟨1, by decide⟩ : Fin 6) (by decide) (by decide) (by decide)).trans rfl
  | ⟨2, _⟩ =>
    exact (coord_kept gCols _ idx (⟨2, by decide⟩ : Fin 6) (by decide) (by decide) (by decide)).trans rfl
  | ⟨3, _⟩ =>
    refine (coord_start gCols _ idx (⟨3, by decide⟩ : Fin 6) (by decide) (by decide) (by decide)).trans ?_
    have hsi : gCols.siIdx (Cert.Patches.ix7 b oh kh ow kw c d)
        ⟨List.idxOf (⟨3, by decide⟩ : Fin 6) gCols.startIndexMap, List.idxOf_lt_length_iff.2 (by decide)⟩
          = ix3 ow kw (0 : Fin 1) := by
      funext e; refine Fin.ext ?_
      match e with
      | ⟨0, _⟩ => rfl
      | ⟨1, _⟩ => rfl
      | ⟨2, _⟩ => rfl
    rw [hsi, hp]
    show min p.val (64 - 1) = p.val
    omega
  | ⟨4, _⟩ =>
    exact (coord_kept gCols _ idx (⟨4, by decide⟩ : Fin 6) (by decide) (by decide) (by decide)).trans rfl
  | ⟨5, _⟩ =>
    exact (coord_kept gCols _ idx (⟨5, by decide⟩ : Fin 6) (by decide) (by decide) (by decide)).trans rfl

/-! ## The two takes -/

/-- Rows taken with a table whose entries are all in 0 … 63: the operand at the row the table names. -/
theorem takeRows_apply (x : FVec F S8x64x64x16x16 .f32) (tab : IVec S62x3 32)
    (htab : ∀ a k, (tab (ix2 a k)).toNat < 64)
    (b : Fin 8) (oh : Fin 62) (kh : Fin 3) (w : Fin 64) (c d : Fin 16) (p : Fin 64)
    (hp : (tab (ix2 oh kh)).toNat = p.val) :
    takeRows x tab (ix6 b oh kh w c d) = x (ix5 b p w c d) := by
  unfold takeRows
  rw [select_apply,
    show broadcastInDim S8x62x3x64x16x16 ![1, 2] bcast_S62x3_S8x62x3x64x16x16_1_2 (inRange (wrapped tab))
        (ix6 b oh kh w c d) = 1#1 from inRange_wrapped tab htab _,
    select_one]
  exact gatherRows_apply x (wrapped tab) b oh kh w c d p
    (by rw [wrapped_apply tab oh kh 0 (htab oh kh), clamp_word _ (htab oh kh), hp])

/-- Columns taken with a table whose entries are all in 0 … 63: the operand at the column the table names. -/
theorem takeCols_apply (y : FVec F S8x62x3x64x16x16 .f32) (tab : IVec S62x3 32)
    (htab : ∀ a k, (tab (ix2 a k)).toNat < 64)
    (b : Fin 8) (oh : Fin 62) (kh : Fin 3) (ow : Fin 62) (kw : Fin 3) (c d : Fin 16) (p : Fin 64)
    (hp : (tab (ix2 ow kw)).toNat = p.val) :
    takeCols y tab (Cert.Patches.ix7 b oh kh ow kw c d) = y (ix6 b oh kh p c d) := by
  unfold takeCols
  rw [select_apply,
    show broadcastInDim S8x62x3x62x3x16x16 ![3, 4] bcast_S62x3_S8x62x3x62x3x16x16_3_4 (inRange (wrapped tab))
        (Cert.Patches.ix7 b oh kh ow kw c d) = 1#1 from inRange_wrapped tab htab _,
    select_one]
  exact gatherCols_apply y (wrapped tab) b oh kh ow kw c d p
    (by rw [wrapped_apply tab ow kw 0 (htab ow kw), clamp_word _ (htab ow kw), hp])

end Takes

open Takes in
/-- Both takes: the element at (b, oh, kh, ow, kw, c, d) is x at (b, oh + kh, ow + kw, c, d). -/
theorem takes_apply (x : FVec F S8x64x64x16x16 .f32) (b : Fin 8) (oh : Fin 62) (kh : Fin 3) (ow : Fin 62) (kw : Fin 3) (cc d : Fin 16) :
    takeCols (takeRows x rowTab) colTab (Cert.Patches.ix7 b oh kh ow kw cc d)
      = x (ix5 b (⟨oh.val + kh.val, by omega⟩ : Fin 64) (⟨ow.val + kw.val, by omega⟩ : Fin 64) cc d) := by
  have hr : ∀ (a : Fin 62) (k : Fin 3), (rowTab (ix2 a k)).toNat < 64 := fun a k => by rw [rowTab_toNat]; omega
  have hc : ∀ (a : Fin 62) (k : Fin 3), (colTab (ix2 a k)).toNat < 64 := fun a k => by rw [colTab_toNat]; omega
  rw [takeCols_apply (takeRows x rowTab) colTab hc b oh kh ow kw cc d ⟨ow.val + kw.val, by omega⟩ (colTab_toNat ow kw)]
  exact takeRows_apply x rowTab hr b oh kh _ cc d ⟨oh.val + kh.val, by omega⟩ (rowTab_toNat oh kh)

end Cert.RefSide

end
-- ==== Proof.RefValue.lean ====
/-
  The reference computes the patches of its input.
-/
import proofs.«152610_j33225867002119_1_alg».proof.Proof.RefTerm
import proofs.«152610_j33225867002119_1_alg».proof.Proof.Patches
import proofs.«152610_j33225867002119_1_alg».proof.Proof.RefLayout
import proofs.«152610_j33225867002119_1_alg».proof.Proof.RefTakes
import Idealize.ShloMosaic.Lib.ValueIdx

noncomputable section

namespace Cert.RefSide

open Cert.ReferenceIdeal Idealize.ShloMosaic Idealize.SL.Sem
open Cert.ReferenceIdeal.Facts₀
open Idealize.ShloMosaic.ValueIdx

variable {F : FTy → Type} [FloatOps F]

/-- The reference's result is the patches of its input: the regrouped transpose sends (r, q, d) to the taken array at
    (r / 62, r % 62, q / 48 % 3, q / 144, q / 16 % 3, q % 16, d), and the two takes read the input there at row
    r % 62 + q / 48 % 3 and column q / 144 + q / 16 % 3. -/
theorem refTerm_eq (x : FVec F S8x64x64x16x16 .f32) : refTerm x = Cert.Patches.patches x := by
  funext i
  obtain ⟨r, q, d, rfl⟩ : ∃ (r : Fin 496) (q : Fin 8928) (d : Fin 16), i = ix3 r q d := ⟨i 0, i 1, i 2, eq_ix3 i⟩
  rw [Cert.Patches.patches_apply]
  unfold refTerm
  refine (layout_apply _ r q d).trans ?_
  refine (takes_apply x _ _ _ _ _ _ _).trans ?_
  rfl

end Cert.RefSide

end
-- ==== Proof.lean ====
/-
  The proof of `Cert.Claim`: the kernel and the reference compute the same patch extraction.

  Both programs only move data. From x : [8, 64, 64, 16, 16] each produces, for every batch b, every position (oh, ow)
  of a 3 × 3 window sliding with stride one over the 64 × 64 rows and columns, every offset (kh, kw) in the window,
  capsule c and pose entry d, the element x[b, oh + kh, ow + kw, c, d], listed in that order and regrouped as
  [496, 8928, 16] (`Cert.Patches.patches`, Proof/Patches.lean).

  The reference takes rows oh + kh and then columns ow + kw through two tables of positions, all of which lie in
  0 … 63, so no position is wrapped and no entry is replaced by the fill value; it then exchanges two axes and regroups
  (Proof/RefRun.lean: its run; Proof/RefTakes.lean, Proof/RefLayout.lean, Proof/RefValue.lean: its value).
  The kernel merges (c, d) into one lane, appends two zero rows per batch, and at grid point (b, ohb) copies, for each
  (kh, kw), 16 rows from row 16 ohb + kh and columns kw … kw + 61 into slot 3 kh + kw of its output block; the rows it
  keeps never reach the appended zeros; the host regroups (Proof/KerHost.lean, Proof/KerBlock.lean, Proof/KerValue.lean).
  No arithmetic is done on the elements, so the equality holds for every input and the precondition is not used.

  The kernel's two frames are the generated frame certificates; the reference's frame is its run with the result
  dropped; the idealization rewrote nothing, so `preserves` is trivial.
-/
import proofs.«152610_j33225867002119_1_alg».proof.Defs
import proofs.«152610_j33225867002119_1_alg».proof.Proof.Gen.Kernel
import proofs.«152610_j33225867002119_1_alg».proof.Proof.Gen.Kernel.Skeleton
import proofs.«152610_j33225867002119_1_alg».proof.Proof.Gen.Kernel.Launch
import proofs.«152610_j33225867002119_1_alg».proof.Proof.Gen.Kernel.Points
import proofs.«152610_j33225867002119_1_alg».proof.Proof.Gen.Kernel.Frame
import proofs.«152610_j33225867002119_1_alg».proof.Proof.Gen.KernelIdeal
import proofs.«152610_j33225867002119_1_alg».proof.Proof.Gen.KernelIdeal.Skeleton
import proofs.«152610_j33225867002119_1_alg».proof.Proof.Gen.KernelIdeal.Launch
import proofs.«152610_j33225867002119_1_alg».proof.Proof.Gen.KernelIdeal.Points
import proofs.«152610_j33225867002119_1_alg».proof.Proof.Gen.KernelIdeal.Frame
import proofs.«152610_j33225867002119_1_alg».proof.Proof.Gen.ReferenceIdeal
import proofs.«152610_j33225867002119_1_alg».proof.Proof.Gen.Pre_finite_inputs
import proofs.«152610_j33225867002119_1_alg».proof.Proof.KerValue
import proofs.«152610_j33225867002119_1_alg».proof.Proof.RefRun
import proofs.«152610_j33225867002119_1_alg».proof.Proof.RefValue
import Idealize.ShloMosaic.Adequacy
import Idealize.ShloMosaic.Init

noncomputable section

namespace Cert.Proof

open Idealize.ShloMosaic Idealize.SL.Sem

/-- The kernel as printed runs and keeps its input. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its input: its run, the result dropped. -/
theorem frame_ri : Cert.frame_ReferenceIdeal := fun m ρ _ =>
  (θ_run Cert.ReferenceIdeal.defs _ _).mono (fun _ h c => (h c).2) (Cert.RefSide.run (F := Ideal) m ρ)

/-- From inputs that agree both programs end with the patches of that input. -/
theorem algebraic : Cert.algebraic_KernelIdeal_ReferenceIdeal := by
  intro m ρ m' ρ' _ hagree
  refine ⟨fun c => Cert.Patches.patches (m ((c.tc : Thread Cert.KernelIdeal.nD Cert.KernelIdeal.τ).loc Cert.KernelIdeal.main_arg0)),
    Cert.KerSide.run (F := Ideal) m ρ, ?_⟩
  refine (θ_run Cert.ReferenceIdeal.defs _ _).mono (fun _ h c => ⟨(h c).1.trans ?_, (h c).2⟩)
    (Cert.RefSide.run (F := Ideal) m' ρ')
  rw [Cert.RefSide.refTerm_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
